-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2x1024 : Shape := ⟨3, ![2048, 2, 1024]⟩
abbrev S1024x3072 : Shape := ⟨2, ![1024, 3072]⟩
abbrev S3072 : Shape := ⟨1, ![3072]⟩
abbrev S_ : Shape := ⟨0, ![]⟩

class Facts : Prop where
  bcast_S_S2048x2x1024 : S_.BroadcastsInDim S2048x2x1024 (![] : Fin 0 → Fin S2048x2x1024.rank)
  reducesTo_S2048x2x1024_S_d0_1_2 : S2048x2x1024.ReducesTo [0, 1, 2] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S3072 : S_.BroadcastsInDim S3072 (![] : Fin 0 → Fin S3072.rank)
  reducesTo_S3072_S_d0 : S3072.ReducesTo [0] S_

variable [Facts]

def fn {F : FTy → Type} [FloatOps F] (main_arg0 : FVec F S2048x2x1024 .f32) (main_arg1 : FVec F S1024x3072 .f32) (main_arg2 : FVec F S3072 .f32) : IVec S_ 1 :=
  let main_v0 : FVec F S2048x2x1024 .f32 := Host.absf main_arg0
  let main_cst : FVec F S_ .f32 := constant S_ .f32 0x7F800000#32
  let main_v1 : FVec F S2048x2x1024 .f32 := broadcastInDim S2048x2x1024 ![] bcast_S_S2048x2x1024 main_cst
  let main_v2 : IVec S2048x2x1024 1 := cmpf .olt main_v0 main_v1
  let main_c : IVec S_ 1 := constantI S_ 1 1#1
  let main_v3 : IVec S_ 1 := (fun x v => Host.reduce IntOp.andi x v reducesTo_S2048x2x1024_S_d0_1_2 h_S_) main_v2 main_c
  let main_v4 : FVec F S1024x3072 .f32 := Host.absf main_arg1
  let main_cst_0 : FVec F S_ .f32 := constant S_ .f32 0x7F800000#32
  let main_v5 : FVec F S1024x3072 .f32 := broadcastInDim S1024x3072 ![] bcast_S_S1024x3072 main_cst_0
  let main_v6 : IVec S1024x3072 1 := cmpf .olt main_v4 main_v5
  let main_c_1 : IVec S_ 1 := constantI S_ 1 1#1
  let main_v7 : IVec S_ 1 := (fun x v => Host.reduce IntOp.andi x v reducesTo_S1024x3072_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  main_v13
-- ==== Kernel.lean ====
abbrev S2048x2x1024 : Shape := ⟨3, ![2048, 2, 1024]⟩
abbrev S1024x3072 : Shape := ⟨2, ![1024, 3072]⟩
abbrev S3072 : Shape := ⟨1, ![3072]⟩
abbrev S2x2048x1024 : Shape := ⟨3, ![2, 2048, 1024]⟩
abbrev S1024x1024 : Shape := ⟨2, ![1024, 1024]⟩
abbrev S_ : Shape := ⟨0, ![]⟩
abbrev S1024 : Shape := ⟨1, ![1024]⟩
abbrev S2048x2048 : Shape := ⟨2, ![2048, 2048]⟩
abbrev S1x2048x1024 : Shape := ⟨3, ![1, 2048, 1024]⟩
abbrev S1024x128 : Shape := ⟨2, ![1024, 128]⟩
abbrev S128 : Shape := ⟨1, ![128]⟩
abbrev S512x128 : Shape := ⟨2, ![512, 128]⟩
abbrev S2048x128 : Shape := ⟨2, ![2048, 128]⟩
abbrev S2048x1024 : Shape := ⟨2, ![2048, 1024]⟩
abbrev S1x128 : Shape := ⟨2, ![1, 128]⟩
abbrev S1x512x1024 : Shape := ⟨3, ![1, 512, 1024]⟩
abbrev S512x1024 : Shape := ⟨2, ![512, 1024]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 22
  | .vmem => 18
  | .smem => 0
  | _ => 0

abbrev bufTy : (tb : Table) → Fin (tcTables nBuf tb) → BufTy
  | .hbm, ⟨0, _⟩ => ⟨S2048x2x1024, .f32⟩
  | .hbm, ⟨1, _⟩ => ⟨S1024x3072, .f32⟩
  | .hbm, ⟨2, _⟩ => ⟨S3072, .f32⟩
  | .hbm, ⟨3, _⟩ => ⟨S2x2048x1024, .f32⟩
  | .hbm, ⟨4, _⟩ => ⟨S2x2048x1024, .bf16⟩
  | .hbm, ⟨5, _⟩ => ⟨S1024x1024, .f32⟩
  | .hbm, ⟨6, _⟩ => ⟨S_, .f32⟩
  | .hbm, ⟨7, _⟩ => ⟨S1024x1024, .f32⟩
  | .hbm, ⟨8, _⟩ => ⟨S1024x1024, .f32⟩
  | .hbm, ⟨9, _⟩ => ⟨S1024x1024, .bf16⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S1024, .f32⟩
  | .hbm, ⟨20, _⟩ => ⟨S2048x2048, .f32⟩
  | .hbm, ⟨21, _⟩ => ⟨S2048x2x1024, .f32⟩
  | .local _ .vmem, ⟨0, _⟩ => ⟨S1x2048x1024, .bf16⟩
  | .local _ .vmem, ⟨1, _⟩ => ⟨S1x2048x1024, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .bf16⟩
  | .local _ .vmem, ⟨7, _⟩ => ⟨S1024x128, .bf16⟩
  | .local _ .vmem, ⟨8, _⟩ => ⟨S128, .f32⟩
  | .local _ .vmem, ⟨9, _⟩ => ⟨S128, .f32⟩
  | .local _ .vmem, ⟨10, _⟩ => ⟨S128, .f32⟩
  | .local _ .vmem, ⟨11, _⟩ => ⟨S128, .f32⟩
  | .local _ .vmem, ⟨12, _⟩ => ⟨S128, .f32⟩
  | .local _ .vmem, ⟨13, _⟩ => ⟨S128, .f32⟩
  | .local _ .vmem, ⟨14, _⟩ => ⟨S512x128, .f32⟩
  | .local _ .vmem, ⟨15, _⟩ => ⟨S512x128, .f32⟩
  | .local _ .vmem, ⟨16, _⟩ => ⟨S2048x128, .bf16⟩
  | .local _ .vmem, ⟨17, _⟩ => ⟨S2048x128, .bf16⟩
  | _, _ => ⟨S2048x2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![2, 8, 4], ![false, false, false]⟩

def k0_mult1 (i : grid0.Coords) : BitVec 32 :=
  let arg2 : BitVec 32 := BitVec.ofNat 32 (i 2).val
  let c512_i32 : BitVec 32 := 512#32
  let v3 : BitVec 32 := Scalar.muli arg2 c512_i32
  v3
def k0_off1 (i : grid0.Coords) : Fin 3 → Nat :=
  let c0 : Index := 0#32
  let arg2 : BitVec 32 := BitVec.ofNat 32 (i 2).val
  let c512_i32 : BitVec 32 := 512#32
  let v3 : BitVec 32 := Scalar.muli arg2 c512_i32
  let v4 : BitVec 32 := v3
  let v5 : Index := Scalar.indexCast v4
  let c0_1 : Index := 0#32
  ![0, v5.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_5 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_6 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  ![arg2.toNat, v1.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

class Facts₀ : Prop where
  transposes_S2048x2x1024_S2x2048x1024_1_0_2 : S2048x2x1024.Transposes [1, 0, 2] S2x2048x1024
  bitsLt_bf16_f32 : FTy.bits .bf16 < FTy.bits .f32
  slices_S1024x3072_S1024x1024_0_0 : S1024x3072.Slices ![0, 0] S1024x1024
  bcast_S_S1024x1024 : S_.BroadcastsInDim S1024x1024 (![] : Fin 0 → Fin S1024x1024.rank)
  slices_S1024x3072_S1024x1024_0_1024 : S1024x3072.Slices ![0, 1024] S1024x1024
  slices_S1024x3072_S1024x1024_0_2048 : S1024x3072.Slices ![0, 2048] S1024x1024
  slices_S3072_S1024_0 : S3072.Slices ![0] S1024
  bcast_S_S1024 : S_.BroadcastsInDim S1024 (![] : Fin 0 → Fin S1024.rank)
  slices_S3072_S1024_1024 : S3072.Slices ![1024] S1024
  slices_S3072_S1024_2048 : S3072.Slices ![2048] S1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S2048x128 : S1x128.Broadcasts S2048x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  packedbf16_S2048x128_S2048x128_0_0 : (Rect.unit (s := S2048x128) ![0, 0] S2048x128.size inb_S2048x128_S2048x128_0_0).PackedRows (EltTy.packing .bf16)
  h_S1x512x1024 : 0 < S1x512x1024.numel
  shapeCasts_S1x512x1024_S512x1024 : S1x512x1024.ShapeCasts S512x1024
  broadcasts_S1x128_S512x128 : S1x128.Broadcasts S512x128
  slices_S512x128_o0_0_S512x64 : S512x128.Slices ![0, 0] S512x64
  slices_S2048x128_o0_0_S2048x64 : S2048x128.Slices ![0, 0] S2048x64
  reduces_S512x2048_S512 : S512x2048.Reduces [1] S512
  shapeCasts_S512_S512x1 : S512.ShapeCasts S512x1
  broadcasts_S512x1_S512x2048 : S512x1.Broadcasts S512x2048
  broadcasts_S512x1_S512x64 : S512x1.Broadcasts S512x64
  slices_S512x128_o0_64_S512x64 : S512x128.Slices ![0, 64] S512x64
  slices_S2048x128_o0_64_S2048x64 : S2048x128.Slices ![0, 64] S2048x64
  concatenates_S512x64_S512x64_S512x128_d1 : Shape.Concatenates [S512x64, S512x64] S512x128 1
  inb_S512x128_S512x128_0_0 : ∀ a, (![0, 0] : Fin 2 → Nat) a + S512x128.size a ≤ S512x128.size a
  h_S512x128 : 0 < S512x128.numel
  shapeCasts_S2048x2048_S2048x2x1024 : S2048x2048.ShapeCasts S2048x2x1024
  dot_S2048x1024_S1024x128_S2048x128_1_0_0_1_n_n_wf : DotDims.WF S2048x1024 S1024x128 S2048x128 [1] [0] [0] [1] [] []
  dot_S512x1024_S1024x128_S512x128_1_0_0_1_n_n_wf : DotDims.WF S512x1024 S1024x128 S512x128 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  k0_mult1_dvd : ∀ i : grid0.Coords, 512 ∣ (k0_mult1 i).toNat
  k0_off1_inb : ∀ i : grid0.Coords, ∀ a, (k0_off1 i) a + S1x512x1024.size a ≤ S1x2048x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S2x2048x1024.size a
  hwx0_0 : ∀ i : grid0.Coords, EltTy.bits .bf16 = 32 ∨ (Rect.block (s := S2x2048x1024) S1x2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x1024.size a
  hwx0_1 : ∀ i : grid0.Coords, EltTy.bits .bf16 = 32 ∨ (Rect.block (s := S1024x1024) S1024x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S1024x1024.size a
  hwx0_2 : ∀ i : grid0.Coords, EltTy.bits .bf16 = 32 ∨ (Rect.block (s := S1024x1024) S1024x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S1024x1024.size a
  hwx0_3 : ∀ i : grid0.Coords, EltTy.bits .bf16 = 32 ∨ (Rect.block (s := S1024x1024) S1024x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S1024.size a
  hwx0_4 : ∀ i : grid0.Coords, EltTy.bits .f32 = 32 ∨ (Rect.block (s := S1024) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S1024.size a
  hwx0_5 : ∀ i : grid0.Coords, EltTy.bits .f32 = 32 ∨ (Rect.block (s := S1024) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S1024.size a
  hwx0_6 : ∀ i : grid0.Coords, EltTy.bits .f32 = 32 ∨ (Rect.block (s := S1024) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x128.size a ≤ S2048x2048.size a
  hwx0_7 : ∀ i : grid0.Coords, EltTy.bits .f32 = 32 ∨ (Rect.block (s := S2048x2048) S512x128.size (cc0_transform_7 i) (hinb0_7 i)).WholeWords (EltTy.packing .f32)

variable [Facts₀]

def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf
def dot_S512x1024_S1024x128_S512x128_1_0_0_1_n_n : DotDims S512x1024 S1024x128 S512x128 where
  lhsContracting := [1]
  rhsContracting := [0]
  lhsNonContracting := [0]
  rhsNonContracting := [1]
  lhsBatch := []
  rhsBatch := []
  wf := dot_S512x1024_S1024x128_S512x128_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v1) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1024x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12) S128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v13) S128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v14) S128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v15) S512x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2048x2x1024 : Shape := ⟨3, ![2048, 2, 1024]⟩
abbrev S1024x3072 : Shape := ⟨2, ![1024, 3072]⟩
abbrev S3072 : Shape := ⟨1, ![3072]⟩
abbrev S2048x2x3072 : Shape := ⟨3, ![2048, 2, 3072]⟩
abbrev S1x1x3072 : Shape := ⟨3, ![1, 1, 3072]⟩
abbrev S_ : Shape := ⟨0, ![]⟩
abbrev S2048x32x64 : Shape := ⟨3, ![2048, 32, 64]⟩
abbrev S32x2048x64 : Shape := ⟨3, ![32, 2048, 64]⟩
abbrev S32x2048x2048 : Shape := ⟨3, ![32, 2048, 2048]⟩
abbrev S32x2048 : Shape := ⟨2, ![32, 2048]⟩
abbrev S32x2048x1 : Shape := ⟨3, ![32, 2048, 1]⟩

abbrev nBuf : Space → Nat
  | .hbm => 37
  | .vmem => 0
  | .smem => 0
  | _ => 0

abbrev bufTy : (tb : Table) → Fin (tcTables nBuf tb) → BufTy
  | .hbm, ⟨0, _⟩ => ⟨S2048x2x1024, .f32⟩
  | .hbm, ⟨1, _⟩ => ⟨S1024x3072, .f32⟩
  | .hbm, ⟨2, _⟩ => ⟨S3072, .f32⟩
  | .hbm, ⟨3, _⟩ => ⟨S2048x2x3072, .f32⟩
  | .hbm, ⟨4, _⟩ => ⟨S1x1x3072, .f32⟩
  | .hbm, ⟨5, _⟩ => ⟨S2048x2x3072, .f32⟩
  | .hbm, ⟨6, _⟩ => ⟨S2048x2x3072, .f32⟩
  | .hbm, ⟨7, _⟩ => ⟨S2048x2x1024, .f32⟩
  | .hbm, ⟨8, _⟩ => ⟨S2048x2x1024, .f32⟩
  | .hbm, ⟨9, _⟩ => ⟨S2048x2x1024, .f32⟩
  | .hbm, ⟨10, _⟩ => ⟨S_, .f32⟩
  | .hbm, ⟨11, _⟩ => ⟨S2048x2x1024, .f32⟩
  | .hbm, ⟨12, _⟩ => ⟨S2048x2x1024, .f32⟩
  | .hbm, ⟨13, _⟩ => ⟨S2048x32x64, .f32⟩
  | .hbm, ⟨14, _⟩ => ⟨S32x2048x64, .f32⟩
  | .hbm, ⟨15, _⟩ => ⟨S2048x32x64, .f32⟩
  | .hbm, ⟨16, _⟩ => ⟨S32x2048x64, .f32⟩
  | .hbm, ⟨17, _⟩ => ⟨S2048x32x64, .f32⟩
  | .hbm, ⟨18, _⟩ => ⟨S32x2048x64, .f32⟩
  | .hbm, ⟨19, _⟩ => ⟨S32x2048x2048, .f32⟩
  | .hbm, ⟨20, _⟩ => ⟨S_, .f32⟩
  | .hbm, ⟨21, _⟩ => ⟨S32x2048, .f32⟩
  | .hbm, ⟨22, _⟩ => ⟨S_, .f32⟩
  | .hbm, ⟨23, _⟩ => ⟨S32x2048, .f32⟩
  | .hbm, ⟨24, _⟩ => ⟨S32x2048, .f32⟩
  | .hbm, ⟨25, _⟩ => ⟨S32x2048x1, .f32⟩
  | .hbm, ⟨26, _⟩ => ⟨S32x2048x2048, .f32⟩
  | .hbm, ⟨27, _⟩ => ⟨S32x2048x2048, .f32⟩
  | .hbm, ⟨28, _⟩ => ⟨S32x2048x2048, .f32⟩
  | .hbm, ⟨29, _⟩ => ⟨S_, .f32⟩
  | .hbm, ⟨30, _⟩ => ⟨S32x2048, .f32⟩
  | .hbm, ⟨31, _⟩ => ⟨S32x2048x1, .f32⟩
  | .hbm, ⟨32, _⟩ => ⟨S32x2048x2048, .f32⟩
  | .hbm, ⟨33, _⟩ => ⟨S32x2048x2048, .f32⟩
  | .hbm, ⟨34, _⟩ => ⟨S32x2048x64, .f32⟩
  | .hbm, ⟨35, _⟩ => ⟨S2048x32x64, .f32⟩
  | .hbm, ⟨36, _⟩ => ⟨S2048x2x1024, .f32⟩
  | _, _ => ⟨S2048x2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S2048x2x3072_0_1_2 : S1x1x3072.BroadcastsInDim S2048x2x3072 (![0, 1, 2] : Fin 3 → Fin S2048x2x3072.rank)
  slices_S2048x2x3072_S2048x2x1024_0_0_0 : S2048x2x3072.Slices ![0, 0, 0] S2048x2x1024
  slices_S2048x2x3072_S2048x2x1024_0_0_1024 : S2048x2x3072.Slices ![0, 0, 1024] S2048x2x1024
  slices_S2048x2x3072_S2048x2x1024_0_0_2048 : S2048x2x3072.Slices ![0, 0, 2048] S2048x2x1024
  bcast_S_S2048x2x1024 : S_.BroadcastsInDim S2048x2x1024 (![] : Fin 0 → Fin S2048x2x1024.rank)
  shapeCasts_S2048x2x1024_S2048x32x64 : S2048x2x1024.ShapeCasts S2048x32x64
  transposes_S2048x32x64_S32x2048x64_1_0_2 : S2048x32x64.Transposes [1, 0, 2] S32x2048x64
  reducesTo_S32x2048x2048_S32x2048_d2 : S32x2048x2048.ReducesTo [2] S32x2048
  h_S_ : 0 < S_.numel
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bcast_S32x2048x1_S32x2048x2048_0_1_2 : S32x2048x1.BroadcastsInDim S32x2048x2048 (![0, 1, 2] : Fin 3 → Fin S32x2048x2048.rank)
  transposes_S32x2048x64_S2048x32x64_1_0_2 : S32x2048x64.Transposes [1, 0, 2] S2048x32x64
  shapeCasts_S2048x32x64_S2048x2x1024 : S2048x32x64.ShapeCasts S2048x2x1024
  dot_S2048x2x1024_S1024x3072_S2048x2x3072_2_0_01_1_n_n_wf : DotDims.WF S2048x2x1024 S1024x3072 S2048x2x3072 [2] [0] [0, 1] [1] [] []
  dot_S32x2048x64_S32x2048x64_S32x2048x2048_2_2_1_1_0_0_wf : DotDims.WF S32x2048x64 S32x2048x64 S32x2048x2048 [2] [2] [1] [1] [0] [0]
  dot_S32x2048x2048_S32x2048x64_S32x2048x64_2_1_1_2_0_0_wf : DotDims.WF S32x2048x2048 S32x2048x64 S32x2048x64 [2] [1] [1] [2] [0] [0]

variable [Facts₀]

def dot_S2048x2x1024_S1024x3072_S2048x2x3072_2_0_01_1_n_n : DotDims S2048x2x1024 S1024x3072 S2048x2x3072 where
  lhsContracting := [2]
  rhsContracting := [0]
  lhsNonContracting := [0, 1]
  rhsNonContracting := [1]
  lhsBatch := []
  rhsBatch := []
  wf := dot_S2048x2x1024_S1024x3072_S2048x2x3072_2_0_01_1_n_n_wf
def dot_S32x2048x64_S32x2048x64_S32x2048x2048_2_2_1_1_0_0 : DotDims S32x2048x64 S32x2048x64 S32x2048x2048 where
  lhsContracting := [2]
  rhsContracting := [2]
  lhsNonContracting := [1]
  rhsNonContracting := [1]
  lhsBatch := [0]
  rhsBatch := [0]
  wf := dot_S32x2048x64_S32x2048x64_S32x2048x2048_2_2_1_1_0_0_wf
def dot_S32x2048x2048_S32x2048x64_S32x2048x64_2_1_1_2_0_0 : DotDims S32x2048x2048 S32x2048x64 S32x2048x64 where
  lhsContracting := [2]
  rhsContracting := [1]
  lhsNonContracting := [1]
  rhsNonContracting := [2]
  lhsBatch := [0]
  rhsBatch := [0]
  wf := dot_S32x2048x2048_S32x2048x64_S32x2048x64_2_1_1_2_0_0_wf

class Facts : Prop extends Facts₀ where

variable [Facts]
-- ==== Proof.Pieces.lean ====
/-
  What one grid point's run of the kernel body leaves behind, as pure functions of what it loaded.

  A point whose third coordinate is zero (the first query tile of a plane) projects the whole staged slab of its batch
  member onto the plane's 128 key lanes and 128 value lanes and stores both in the two scratch buffers; every point
  then projects its own 512-row query tile and attends against the scratch contents.  At a first point the scratch is
  read back after that very store, so it holds the freshly projected keys and values; at a later point it holds what the
  point before left.  In both cases the output block is one function of the query tile, the query weights and bias, and
  the keys and values the scratch holds.
-/
import proofs.«408540_j45543833207190_3_alg».proof.Proof.Gen.KernelIdeal.Frame
import Idealize.ShloMosaic.Lib.Pipeline.Value
import Idealize.ShloMosaic.Lib.ValueIdx

set_option maxRecDepth 16384

noncomputable section

namespace FusedAttention

open Cert.KernelIdeal Cert.KernelIdeal.Gen
open Idealize.ShloMosaic Idealize.ShloMosaic.TcCoe Idealize.ShloMosaic.Tactic Idealize.ShloMosaic.ValueIdx
open Idealize.SL Idealize.SL.Sem

variable {F : FTy → Type} [FloatOps F]

theorem zeroOff1 : (![0] : Fin 1 → Nat) = fun _ => 0 := funext fun a => by fin_cases a <;> rfl
theorem zeroOff2 : (![0, 0] : Fin 2 → Nat) = fun _ => 0 := funext fun a => by fin_cases a <;> rfl
theorem zeroOff3 : (![0, 0, 0] : Fin 3 → Nat) = fun _ => 0 := funext fun a => by fin_cases a <;> rfl

/-- The query tile of a point: the 512 rows of the staged slab that start at 512 times the point's third coordinate. -/
def queryTile (i : grid0.Coords) (x0 : Vec F S1x2048x1024 .bf16) : Vec F S1x512x1024 .bf16 :=
  View.ld x0 (Rect.unit (s := S1x2048x1024) (k0_off1 i) S1x512x1024.size (k0_off1_inb i))

/-- The tile starts at row 512 · (third coordinate): the index word is that product, which does not wrap. -/
theorem tile_row (i : grid0.Coords) : (k0_off1 i) 1 = (i 2).val * 512 := by
  have h : ∀ k : Fin 4, (Scalar.indexCast (Scalar.muli (BitVec.ofNat 32 k.val) 512#32)).toNat = k.val * 512 := by decide
  exact h (i 2)

/-- Row `r` of the tile is row `512 · (third coordinate) + r` of the slab. -/
theorem queryTile_apply (i : grid0.Coords) (x0 : Vec F S1x2048x1024 .bf16) (r : Fin 512) (j : Fin 1024)
    (R : Fin 2048) (hR : R.val = (i 2).val * 512 + r.val) :
    queryTile i x0 (ix3 0 r j) = x0 (ix3 0 R j) := by
  unfold queryTile
  show x0 _ = x0 _
  refine congrArg x0 (funext fun a => Fin.ext ?_)
  match a with
  | ⟨0, _⟩ => rfl
  | ⟨1, _⟩ =>
    show (k0_off1 i) 1 + 1 * r.val = R.val
    rw [tile_row, hR]; omega
  | ⟨2, _⟩ =>
    show 0 + 1 * j.val = j.val
    omega

/-- A first point leaves the projected keys in the first scratch buffer. -/
theorem firstPoint_keys (c : Dev nD) (i : grid0.Coords) (arg3 : Memref sig .tc .vmem S1x2048x1024 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S512x128 .f32) (harg10 : arg10.IsWhole) (arg11 : Memref sig .tc .vmem S2048x128 .bf16) (harg11 : arg11.IsWhole) (arg12 : Memref sig .tc .vmem S2048x128 .bf16) (harg12 : arg12.IsWhole) (hc0 : cond0_0 i) (x0 : Vec F S1x2048x1024 .bf16) (x1 : Vec F S1024x128 .bf16) (x2 : Vec F S1024x128 .bf16) (x3 : Vec F S1024x128 .bf16) (x4 : Vec F S128 .f32) (x5 : Vec F S128 .f32) (x6 : Vec F S128 .f32) :
    sout0_A_0 c i arg3 harg3 arg4 harg4 arg5 harg5 arg6 harg6 arg7 harg7 arg8 harg8 arg9 harg9 arg10 harg10 arg11 harg11 arg12 harg12 hc0 x0 x1 x2 x3 x4 x5 x6 = k0_pay3 x0 x2 x5 := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  rw [View.canon_unit_zero zeroOff2]
  simp only [View.readAt_eq_ld, harg3.read_unread, harg5.read_unread, harg8.read_unread, View.ld_unit_zero (S := S1x2048x1024) zeroOff3, View.ld_unit_zero (S := S1024x128) zeroOff2, View.ld_unit_zero (S := S128) zeroOff1]

/-- A first point leaves the projected values in the second scratch buffer. -/
theorem firstPoint_values (c : Dev nD) (i : grid0.Coords) (arg3 : Memref sig .tc .vmem S1x2048x1024 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S512x128 .f32) (harg10 : arg10.IsWhole) (arg11 : Memref sig .tc .vmem S2048x128 .bf16) (harg11 : arg11.IsWhole) (arg12 : Memref sig .tc .vmem S2048x128 .bf16) (harg12 : arg12.IsWhole) (hc0 : cond0_0 i) (x0 : Vec F S1x2048x1024 .bf16) (x1 : Vec F S1024x128 .bf16) (x2 : Vec F S1024x128 .bf16) (x3 : Vec F S1024x128 .bf16) (x4 : Vec F S128 .f32) (x5 : Vec F S128 .f32) (x6 : Vec F S128 .f32) :
    sout0_A_1 c i arg3 harg3 arg4 harg4 arg5 harg5 arg6 harg6 arg7 harg7 arg8 harg8 arg9 harg9 arg10 harg10 arg11 harg11 arg12 harg12 hc0 x0 x1 x2 x3 x4 x5 x6 = k0_pay4 x0 x3 x6 := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  rw [View.canon_unit_zero zeroOff2]
  simp only [View.readAt_eq_ld, harg3.read_unread, harg6.read_unread, harg9.read_unread, View.ld_unit_zero (S := S1x2048x1024) zeroOff3, View.ld_unit_zero (S := S1024x128) zeroOff2, View.ld_unit_zero (S := S128) zeroOff1]

/-- The output block as a function of the query tile, the query weights and bias, and the scratch's keys and values. -/
def outBlock (q : Vec F S1x512x1024 .bf16) (wq : Vec F S1024x128 .bf16) (bq : Vec F S128 .f32) (K V : Vec F S2048x128 .bf16) : Vec F S512x128 .f32 :=
  k0_pay1 (k0_pay6 q wq bq K V) (k0_pay7 V) (k0_pay8 q wq bq K)

/-- A first point's output block: attention of its query tile against the keys and values it has just projected. -/
theorem firstPoint_out (c : Dev nD) (i : grid0.Coords) (arg3 : Memref sig .tc .vmem S1x2048x1024 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S512x128 .f32) (harg10 : arg10.IsWhole) (arg11 : Memref sig .tc .vmem S2048x128 .bf16) (harg11 : arg11.IsWhole) (arg12 : Memref sig .tc .vmem S2048x128 .bf16) (harg12 : arg12.IsWhole) (hc0 : cond0_0 i) (x0 : Vec F S1x2048x1024 .bf16) (x1 : Vec F S1024x128 .bf16) (x2 : Vec F S1024x128 .bf16) (x3 : Vec F S1024x128 .bf16) (x4 : Vec F S128 .f32) (x5 : Vec F S128 .f32) (x6 : Vec F S128 .f32) :
    out0_A_7 c i arg3 harg3 arg4 harg4 arg5 harg5 arg6 harg6 arg7 harg7 arg8 harg8 arg9 harg9 arg10 harg10 arg11 harg11 arg12 harg12 hc0 x0 x1 x2 x3 x4 x5 x6 = outBlock (queryTile i x0) x1 x4 (k0_pay3 x0 x2 x5) (k0_pay4 x0 x3 x6) := by
  unfold out0_A_7
  rw [View.read_writes_eq_canon _ _ _ (cover0_A_7 c i arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  rw [View.canon_unit_zero zeroOff2]
  simp only [View.readAt_eq_ld, harg3.read_unread, harg4.read_unread, harg5.read_unread, harg6.read_unread, harg7.read_unread, harg8.read_unread, harg9.read_unread,
    View.readCov_unit_zero (S := S2048x128) _ zeroOff2,
    View.ld_unit_zero (S := S1x2048x1024) zeroOff3, View.ld_unit_zero (S := S1024x128) zeroOff2, View.ld_unit_zero (S := S128) zeroOff1]
  rfl

/-- A later point's output block: attention of its query tile against the keys and values the point before left. -/
theorem laterPoint_out (c : Dev nD) (i : grid0.Coords) (arg3 : Memref sig .tc .vmem S1x2048x1024 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S512x128 .f32) (harg10 : arg10.IsWhole) (arg11 : Memref sig .tc .vmem S2048x128 .bf16) (harg11 : arg11.IsWhole) (arg12 : Memref sig .tc .vmem S2048x128 .bf16) (harg12 : arg12.IsWhole) (hc0 : ¬ cond0_0 i) (x0 : Vec F S1x2048x1024 .bf16) (x1 : Vec F S1024x128 .bf16) (x2 : Vec F S1024x128 .bf16) (x3 : Vec F S1024x128 .bf16) (x4 : Vec F S128 .f32) (x5 : Vec F S128 .f32) (x6 : Vec F S128 .f32) (xs0 xs1 : Vec F S2048x128 .bf16) :
    out0_B_7 c i arg3 harg3 arg4 harg4 arg5 harg5 arg6 harg6 arg7 harg7 arg8 harg8 arg9 harg9 arg10 harg10 arg11 harg11 arg12 harg12 hc0 x0 x1 x2 x3 x4 x5 x6 xs0 xs1 = outBlock (queryTile i x0) x1 x4 xs0 xs1 := by
  unfold out0_B_7
  rw [View.read_writes_eq_canon _ _ _ (cover0_B_7 c i arg3 harg3 arg4 harg4 arg5 harg5 arg6 harg6 arg7 harg7 arg8 harg8 arg9 harg9 arg10 harg10 arg11 harg11 arg12 harg12 hc0 x0 x1 x2 x3 x4 x5 x6 xs0 xs1)]
  unfold kernelRun0_B
  dsimp only
  sl_unfold_words
  rw [View.canon_unit_zero zeroOff2]
  simp only [View.readAt_eq_ld, harg3.read_unread, harg4.read_unread, harg7.read_unread, harg11.read_unread, harg12.read_unread,
    View.ld_unit_zero (S := S2048x128) zeroOff2, View.ld_unit_zero (S := S1024x128) zeroOff2, View.ld_unit_zero (S := S128) zeroOff1]
  rfl

end FusedAttention

end
-- ==== Proof.Spec.lean ====
/-
  The mathematics both programs compute: multi-head self-attention over a fused query/key/value projection.

  Inputs: `x` of shape [2048, 2, 1024] (sequence position, batch member, embedding coordinate), the fused weight `W` of shape
  [1024, 3072] whose three column sections of width 1024 project to queries, keys and values, and the bias `b` of shape [3072].
  The 1024 embedding coordinates split into 16 heads of 64: coordinate `e` belongs to head `e / 64`, whose coordinates are
  `e / 64 * 64 + d` for `d < 64`.  For position `s`, batch member `n` and coordinate `e` the result is the softmax-weighted
  average over the key positions `t` of the values at `(t, n, e)`, the weight of `t` being the exponential of the score of `s`
  against `t` in the head of `e` less the row's greatest score.

  Two arrangements of that one function are stated.  The first scales the projected queries by 1/8 and normalises each weight
  before it meets its value.  The second folds the 1/8 into the query section of the weight and the bias, and divides the
  weighted sum of values by the sum of the weights once.  Over real inputs the two agree (module `Algebra`).
-/
import Idealize.ShloMosaic.PureOps.Ideal
import Idealize.ShloMosaic.Lib.ValueIdx

noncomputable section

namespace FusedAttention

open Idealize.ShloMosaic Idealize.ShloMosaic.ValueIdx
open scoped BigOperators

/-- The three argument arrays' shapes. -/
abbrev SX : Shape := ⟨3, ![2048, 2, 1024]⟩
abbrev SW : Shape := ⟨2, ![1024, 3072]⟩
abbrev SB : Shape := ⟨1, ![3072]⟩

/-- The softmax scale, 1/8 = 64^(-1/2), as the f32 word both programs carry. -/
abbrev scale : EReal := Ideal.ofBits .f32 0x3E000000#32
/-- The value a row's maximum is folded from: the f32 word of minus infinity. -/
abbrev negInf : EReal := Ideal.ofBits .f32 0xFF800000#32
/-- The value a sum is started from: the f32 zero word. -/
abbrev zeroW : EReal := Ideal.ofBits .f32 0x00000000#32

/-- Column `sec · 1024 + e` of the fused weight and bias: section 0 the queries, 1 the keys, 2 the values. -/
def wcol (sec : Fin 3) (e : Fin 1024) : Fin 3072 := ⟨sec.val * 1024 + e.val, by omega⟩

/-- Coordinate `d` of the head that holds embedding coordinate `e`. -/
def hcol (e : Fin 1024) (d : Fin 64) : Fin 1024 := ⟨e.val / 64 * 64 + d.val, by omega⟩

/-- The affine projection `x · W + b` at section `sec`, position `s`, batch member `n`, coordinate `e`. -/
def proj (x : SX.Idx → EReal) (W : SW.Idx → EReal) (b : SB.Idx → EReal) (sec : Fin 3)
    (s : Fin 2048) (n : Fin 2) (e : Fin 1024) : EReal :=
  (∑ j : Fin 1024, x (ix3 s n j) * W (ix2 j (wcol sec e))) + b (ix1 (wcol sec e))

/-- Queries, first arrangement: project, then scale. -/
def qScaled (x : SX.Idx → EReal) (W : SW.Idx → EReal) (b : SB.Idx → EReal) (s : Fin 2048) (n : Fin 2) (e : Fin 1024) : EReal :=
  proj x W b 0 s n e * scale

/-- Queries, second arrangement: the scale folded into the weight's and the bias's query section. -/
def qFolded (x : SX.Idx → EReal) (W : SW.Idx → EReal) (b : SB.Idx → EReal) (s : Fin 2048) (n : Fin 2) (e : Fin 1024) : EReal :=
  (∑ j : Fin 1024, x (ix3 s n j) * (W (ix2 j (wcol 0 e)) * scale)) + b (ix1 (wcol 0 e)) * scale

/-- The score of query position `s` against key position `t`, in the head of coordinate `e` of batch member `n`. -/
def score (q k : Fin 2048 → Fin 2 → Fin 1024 → EReal) (s : Fin 2048) (n : Fin 2) (e : Fin 1024) (t : Fin 2048) : EReal :=
  ∑ d : Fin 64, q s n (hcol e d) * k t n (hcol e d)

/-- A row's greatest score, folded from minus infinity. -/
def rowMax (f : Fin 2048 → EReal) : EReal := (Finset.univ : Finset (Fin 2048)).fold max negInf f

/-- First arrangement: each weight normalised by the row's sum (started from the zero word), then the weighted sum of values;
    the row's maximum is taken once more against minus infinity, as the softmax of the array library does. -/
def attnNormalisedFirst (x : SX.Idx → EReal) (W : SW.Idx → EReal) (b : SB.Idx → EReal) (s : Fin 2048) (n : Fin 2) (e : Fin 1024) : EReal :=
  ∑ t : Fin 2048,
    Ideal.div (Ideal.exp (score (qScaled x W b) (proj x W b 1) s n e t - max negInf (rowMax (score (qScaled x W b) (proj x W b 1) s n e))))
        (zeroW + ∑ t' : Fin 2048, Ideal.exp (score (qScaled x W b) (proj x W b 1) s n e t' - max negInf (rowMax (score (qScaled x W b) (proj x W b 1) s n e))))
      * proj x W b 2 t n e

/-- Second arrangement: the weighted sum of values divided once by the sum of the weights. -/
def attnNormalisedLast (x : SX.Idx → EReal) (W : SW.Idx → EReal) (b : SB.Idx → EReal) (s : Fin 2048) (n : Fin 2) (e : Fin 1024) : EReal :=
  Ideal.div (∑ t : Fin 2048, Ideal.exp (score (qFolded x W b) (proj x W b 1) s n e t - rowMax (score (qFolded x W b) (proj x W b 1) s n e)) * proj x W b 2 t n e)
    (∑ t : Fin 2048, Ideal.exp (score (qFolded x W b) (proj x W b 1) s n e t - rowMax (score (qFolded x W b) (proj x W b 1) s n e)))

/-- The result array, in the first arrangement, as a function of the argument arrays. -/
def resultFirst (x : SX.Idx → EReal) (W : SW.Idx → EReal) (b : SB.Idx → EReal) : SX.Idx → EReal :=
  fun i => attnNormalisedFirst x W b (i 0) (i 1) (i 2)

/-- The result array, in the second arrangement. -/
def resultLast (x : SX.Idx → EReal) (W : SW.Idx → EReal) (b : SB.Idx → EReal) : SX.Idx → EReal :=
  fun i => attnNormalisedLast x W b (i 0) (i 1) (i 2)

end FusedAttention

end
-- ==== Proof.Entry.lean ====
/-
  What the region finds in the arrays its windows stage, index by index, in terms of the program's three arguments.

  Before the region the host transposes `x` to batch-major order (the change of format to bf16 is the identity on
  extended reals), cuts the fused weight and bias into their query, key and value sections, and multiplies the query
  sections by the softmax scale 1/8.
-/
import proofs.«408540_j45543833207190_3_alg».proof.Proof.Gen.KernelIdeal.Frame
import proofs.«408540_j45543833207190_3_alg».proof.Proof.Spec
import Idealize.ShloMosaic.Lib.Pipeline.Value
import Idealize.ShloMosaic.Lib.ValueLayout
import Idealize.ShloMosaic.Lib.StableHlo.Run

set_option maxRecDepth 16384

noncomputable section

namespace FusedAttention

open Cert.KernelIdeal Cert.KernelIdeal.Gen
open Idealize.ShloMosaic Idealize.ShloMosaic.TcCoe Idealize.ShloMosaic.Tactic Idealize.ShloMosaic.ValueIdx
open Idealize.SL Idealize.SL.Sem

variable (m : (ℓ : Loc nD τ sig) → Buf (Elt Ideal) ℓ)

/-- The three argument arrays of the kernel program on core `c`, as extended-real arrays. -/
def argX (c : Dev nD) : SX.Idx → EReal := m ((c : Thread nD τ).loc main_arg0)
def argW (c : Dev nD) : SW.Idx → EReal := m ((c : Thread nD τ).loc main_arg1)
def argB (c : Dev nD) : SB.Idx → EReal := m ((c : Thread nD τ).loc main_arg2)

theorem entry_x_eq (c : Dev nD) :
    (V m c main_v1 : S2x2048x1024.Idx → EReal) = truncf (F := Ideal) .bf16 (transpose S2x2048x1024 [1, 0, 2] (m ((c : Thread nD τ).loc main_arg0)) transposes_S2048x2x1024_S2x2048x1024_1_0_2) bitsLt_bf16_f32 := by
  show StableHlo.after hostOps0 (fun b => m (c, b)) (Proc.devRef .tc main_v1) = _
  after_results

theorem entry_wq_eq (c : Dev nD) :
    (V m c main_v5 : S1024x1024.Idx → EReal) = truncf (F := Ideal) .bf16 (mulf (extractStridedSlice S1024x1024 ![0, 0] (m ((c : Thread nD τ).loc main_arg1)) slices_S1024x3072_S1024x1024_0_0) (broadcastInDim S1024x1024 ![] bcast_S_S1024x1024 (constant (F := Ideal) S_ .f32 0x3E000000#32))) bitsLt_bf16_f32 := by
  show StableHlo.after hostOps0 (fun b => m (c, b)) (Proc.devRef .tc main_v5) = _
  after_results

theorem entry_wk_eq (c : Dev nD) :
    (V m c main_v7 : S1024x1024.Idx → EReal) = truncf (F := Ideal) .bf16 (extractStridedSlice S1024x1024 ![0, 1024] (m ((c : Thread nD τ).loc main_arg1)) slices_S1024x3072_S1024x1024_0_1024) bitsLt_bf16_f32 := by
  show StableHlo.after hostOps0 (fun b => m (c, b)) (Proc.devRef .tc main_v7) = _
  after_results

theorem entry_wv_eq (c : Dev nD) :
    (V m c main_v9 : S1024x1024.Idx → EReal) = truncf (F := Ideal) .bf16 (extractStridedSlice S1024x1024 ![0, 2048] (m ((c : Thread nD τ).loc main_arg1)) slices_S1024x3072_S1024x1024_0_2048) bitsLt_bf16_f32 := by
  show StableHlo.after hostOps0 (fun b => m (c, b)) (Proc.devRef .tc main_v9) = _
  after_results

theorem entry_bq_eq (c : Dev nD) :
    (V m c main_v12 : S1024.Idx → EReal) = mulf (extractStridedSlice S1024 ![0] (m ((c : Thread nD τ).loc main_arg2)) slices_S3072_S1024_0) (broadcastInDim S1024 ![] bcast_S_S1024 (constant (F := Ideal) S_ .f32 0x3E000000#32)) := by
  show StableHlo.after hostOps0 (fun b => m (c, b)) (Proc.devRef .tc main_v12) = _
  after_results

theorem entry_bk_eq (c : Dev nD) :
    (V m c main_v13 : S1024.Idx → EReal) = extractStridedSlice S1024 ![1024] (m ((c : Thread nD τ).loc main_arg2)) slices_S3072_S1024_1024 := by
  show StableHlo.after hostOps0 (fun b => m (c, b)) (Proc.devRef .tc main_v13) = _
  after_results

theorem entry_bv_eq (c : Dev nD) :
    (V m c main_v14 : S1024.Idx → EReal) = extractStridedSlice S1024 ![2048] (m ((c : Thread nD τ).loc main_arg2)) slices_S3072_S1024_2048 := by
  show StableHlo.after hostOps0 (fun b => m (c, b)) (Proc.devRef .tc main_v14) = _
  after_results

/-- The staged `x` at (batch member, position, coordinate) is the argument at (position, batch member, coordinate). -/
theorem entry_x (c : Dev nD) (n : Fin 2) (s : Fin 2048) (j : Fin 1024) :
    (V m c main_v1 : S2x2048x1024.Idx → EReal) (ix3 n s j) = argX m c (ix3 s n j) := by
  rw [entry_x_eq]
  show transpose S2x2048x1024 [1, 0, 2] (m ((c : Thread nD τ).loc main_arg0)) transposes_S2048x2x1024_S2x2048x1024_1_0_2 (ix3 n s j) = _
  exact transpose_apply _ _ _ _ _ fun b => match b with | ⟨0, _⟩ => rfl | ⟨1, _⟩ => rfl | ⟨2, _⟩ => rfl

/-- The query weights the region finds: the query section of the fused weight, scaled. -/
theorem entry_wq (c : Dev nD) (j e : Fin 1024) :
    (V m c main_v5 : S1024x1024.Idx → EReal) (ix2 j e) = (argW m c (ix2 j (wcol 0 e)) : EReal) * scale := by
  rw [entry_wq_eq]
  show extractStridedSlice S1024x1024 ![0, 0] (argW m c) slices_S1024x3072_S1024x1024_0_0 (ix2 j e) * scale = _
  rw [slice2_axis1_apply 0 _ _ j e (wcol 0 e) (by show 0 * 1024 + e.val = 0 + e.val; omega)]

theorem entry_wk (c : Dev nD) (j e : Fin 1024) :
    (V m c main_v7 : S1024x1024.Idx → EReal) (ix2 j e) = argW m c (ix2 j (wcol 1 e)) := by
  rw [entry_wk_eq]
  show extractStridedSlice S1024x1024 ![0, 1024] (m ((c : Thread nD τ).loc main_arg1)) slices_S1024x3072_S1024x1024_0_1024 (ix2 j e) = _
  rw [slice2_axis1_apply 1024 _ _ j e (wcol 1 e) (by show 1 * 1024 + e.val = 1024 + e.val; omega)]
  rfl

theorem entry_wv (c : Dev nD) (j e : Fin 1024) :
    (V m c main_v9 : S1024x1024.Idx → EReal) (ix2 j e) = argW m c (ix2 j (wcol 2 e)) := by
  rw [entry_wv_eq]
  show extractStridedSlice S1024x1024 ![0, 2048] (m ((c : Thread nD τ).loc main_arg1)) slices_S1024x3072_S1024x1024_0_2048 (ix2 j e) = _
  rw [slice2_axis1_apply 2048 _ _ j e (wcol 2 e) (by show 2 * 1024 + e.val = 2048 + e.val; omega)]
  rfl

/-- The query bias the region finds: the query section of the bias, scaled. -/
theorem entry_bq (c : Dev nD) (e : Fin 1024) :
    (V m c main_v12 : S1024.Idx → EReal) (ix1 e) = (argB m c (ix1 (wcol 0 e)) : EReal) * scale := by
  rw [entry_bq_eq]
  show extractStridedSlice S1024 ![0] (argB m c) slices_S3072_S1024_0 (ix1 e) * scale = _
  rw [extractStridedSlice_apply ![0] _ slices_S3072_S1024_0 (ix1 e) (ix1 (wcol 0 e)) (fun a => match a with
    | ⟨0, _⟩ => by show 0 * 1024 + e.val = 0 + e.val; omega)]

theorem entry_bk (c : Dev nD) (e : Fin 1024) :
    (V m c main_v13 : S1024.Idx → EReal) (ix1 e) = argB m c (ix1 (wcol 1 e)) := by
  rw [entry_bk_eq]
  exact extractStridedSlice_apply ![1024] _ slices_S3072_S1024_1024 (ix1 e) (ix1 (wcol 1 e)) (fun a => match a with
    | ⟨0, _⟩ => by show 1 * 1024 + e.val = 1024 + e.val; omega)

theorem entry_bv (c : Dev nD) (e : Fin 1024) :
    (V m c main_v14 : S1024.Idx → EReal) (ix1 e) = argB m c (ix1 (wcol 2 e)) := by
  rw [entry_bv_eq]
  exact extractStridedSlice_apply ![2048] _ slices_S3072_S1024_2048 (ix1 e) (ix1 (wcol 2 e)) (fun a => match a with
    | ⟨0, _⟩ => by show 2 * 1024 + e.val = 2048 + e.val; omega)

end FusedAttention

end
-- ==== Proof.Blocks.lean ====
/-
  The blocks the grid's windows cut from the staged arrays, index by index, in terms of the program's arguments.

  The region runs on a grid of 2 × 8 × 4 = 64 points; point t has coordinates (t / 32, t / 4 % 8, t % 4): the batch
  member, the block of 128 embedding coordinates (two heads), and the block of 512 query positions.  At point t the
  region sees one batch member's whole slab of x, the 128-column blocks of the query, key and value weights and
  biases, and writes the 512 × 128 block of the output at row block t % 4 and column block t / 4.  On every axis a
  block's coordinate in its array is the block index times the block's size plus the coordinate inside the block;
  the block indices are computed for all 64 points at once.  The 64 output blocks tile the 2048 × 2048 output.
-/
import proofs.«408540_j45543833207190_3_alg».proof.Proof.Entry
import Idealize.ShloMosaic.Lib.Pipeline.Value

set_option maxRecDepth 16384

noncomputable section

namespace FusedAttention

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ)

/-! ## The index maps, decided over the 64 grid points -/

/-- The block indices of the seven input windows at point t, whose grid coordinates are (t / 32, t / 4 % 8, t % 4):
    the slab of x moves with the first coordinate, the weight and bias column blocks with the second. -/
theorem inIndex : ∀ t : Fin cfg0.N,
    win0_0.index t (0 : Fin 3) = t.val / 32 ∧ win0_0.index t (1 : Fin 3) = 0 ∧ win0_0.index t (2 : Fin 3) = 0
    ∧ win0_1.index t (0 : Fin 2) = 0 ∧ win0_1.index t (1 : Fin 2) = t.val / 4 % 8
    ∧ win0_2.index t (0 : Fin 2) = 0 ∧ win0_2.index t (1 : Fin 2) = t.val / 4 % 8
    ∧ win0_3.index t (0 : Fin 2) = 0 ∧ win0_3.index t (1 : Fin 2) = t.val / 4 % 8
    ∧ win0_4.index t (0 : Fin 1) = t.val / 4 % 8
    ∧ win0_5.index t (0 : Fin 1) = t.val / 4 % 8
    ∧ win0_6.index t (0 : Fin 1) = t.val / 4 % 8 :=
  (by decide +kernel : ∀ t : Fin grid0.N, _)

/-- The output window's block index at point t: the row block is the third grid coordinate t % 4, the column block
    is (t / 32) · 8 + t / 4 % 8 = t / 4. -/
theorem outIndex : ∀ t : Fin cfg0.N, win0_7.index t (0 : Fin 2) = t.val % 4 ∧ win0_7.index t (1 : Fin 2) = t.val / 4 :=
  (by decide +kernel : ∀ t : Fin grid0.N, _)

/-! ## The input blocks, read off the staged arrays

  A block's coordinate on an axis is its block index times the block's size plus the coordinate inside the block. -/

/-- The slab of x at point t is batch member t / 32 of the staged x. -/
theorem slab_read (c : Dev nD) (t : Fin cfg0.N) (s : Fin 2048) (j : Fin 1024) (n : Fin 2) (hn : n.val = t.val / 32) :
    (iblk m c 0 t : S1x2048x1024.Idx → EReal) (ix3 0 s j) = (V m c main_v1 : S2x2048x1024.Idx → EReal) (ix3 n s j) := by
  show (V m c main_v1 : S2x2048x1024.Idx → EReal) (((cfg0.win 0).blk t).view.emb (ix3 0 s j)) = _
  have h : ((cfg0.win 0).blk t).view.emb (ix3 0 s j) = ix3 n s j := by
    obtain ⟨e0, e1, e2, -⟩ := inIndex t
    funext a; apply Fin.ext
    match a with
    | ⟨0, _⟩ => show win0_0.index t (0 : Fin 3) * 1 + 1 * 0 = n.val; omega
    | ⟨1, _⟩ => show win0_0.index t (1 : Fin 3) * 2048 + 1 * s.val = s.val; omega
    | ⟨2, _⟩ => show win0_0.index t (2 : Fin 3) * 1024 + 1 * j.val = j.val; omega
  rw [h]

/-- The query weight block at point t is the 128 columns from (t / 4 % 8) · 128 of the staged query weights. -/
theorem wqBlock_read (c : Dev nD) (t : Fin cfg0.N) (j : Fin 1024) (cc : Fin 128) (e : Fin 1024) (he : e.val = t.val / 4 % 8 * 128 + cc.val) :
    (iblk m c 1 t : S1024x128.Idx → EReal) (ix2 j cc) = (V m c main_v5 : S1024x1024.Idx → EReal) (ix2 j e) := by
  show (V m c main_v5 : S1024x1024.Idx → EReal) (((cfg0.win 1).blk t).view.emb (ix2 j cc)) = _
  have h : ((cfg0.win 1).blk t).view.emb (ix2 j cc) = ix2 j e := by
    obtain ⟨-, -, -, e0, e1, -⟩ := inIndex t
    funext a; apply Fin.ext
    match a with
    | ⟨0, _⟩ => show win0_1.index t (0 : Fin 2) * 1024 + 1 * j.val = j.val; omega
    | ⟨1, _⟩ => show win0_1.index t (1 : Fin 2) * 128 + 1 * cc.val = e.val; omega
  rw [h]

/-- The key weight block, likewise. -/
theorem wkBlock_read (c : Dev nD) (t : Fin cfg0.N) (j : Fin 1024) (cc : Fin 128) (e : Fin 1024) (he : e.val = t.val / 4 % 8 * 128 + cc.val) :
    (iblk m c 2 t : S1024x128.Idx → EReal) (ix2 j cc) = (V m c main_v7 : S1024x1024.Idx → EReal) (ix2 j e) := by
  show (V m c main_v7 : S1024x1024.Idx → EReal) (((cfg0.win 2).blk t).view.emb (ix2 j cc)) = _
  have h : ((cfg0.win 2).blk t).view.emb (ix2 j cc) = ix2 j e := by
    obtain ⟨-, -, -, -, -, e0, e1, -⟩ := inIndex t
    funext a; apply Fin.ext
    match a with
    | ⟨0, _⟩ => show win0_2.index t (0 : Fin 2) * 1024 + 1 * j.val = j.val; omega
    | ⟨1, _⟩ => show win0_2.index t (1 : Fin 2) * 128 + 1 * cc.val = e.val; omega
  rw [h]

/-- The value weight block, likewise. -/
theorem wvBlock_read (c : Dev nD) (t : Fin cfg0.N) (j : Fin 1024) (cc : Fin 128) (e : Fin 1024) (he : e.val = t.val / 4 % 8 * 128 + cc.val) :
    (iblk m c 3 t : S1024x128.Idx → EReal) (ix2 j cc) = (V m c main_v9 : S1024x1024.Idx → EReal) (ix2 j e) := by
  show (V m c main_v9 : S1024x1024.Idx → EReal) (((cfg0.win 3).blk t).view.emb (ix2 j cc)) = _
  have h : ((cfg0.win 3).blk t).view.emb (ix2 j cc) = ix2 j e := by
    obtain ⟨-, -, -, -, -, -, -, e0, e1, -⟩ := inIndex t
    funext a; apply Fin.ext
    match a with
    | ⟨0, _⟩ => show win0_3.index t (0 : Fin 2) * 1024 + 1 * j.val = j.val; omega
    | ⟨1, _⟩ => show win0_3.index t (1 : Fin 2) * 128 + 1 * cc.val = e.val; omega
  rw [h]

/-- The query bias block at point t is the 128 entries from (t / 4 % 8) · 128 of the staged query bias. -/
theorem bqBlock_read (c : Dev nD) (t : Fin cfg0.N) (cc : Fin 128) (e : Fin 1024) (he : e.val = t.val / 4 % 8 * 128 + cc.val) :
    (iblk m c 4 t : S128.Idx → EReal) (ix1 cc) = (V m c main_v12 : S1024.Idx → EReal) (ix1 e) := by
  show (V m c main_v12 : S1024.Idx → EReal) (((cfg0.win 4).blk t).view.emb (ix1 cc)) = _
  have h : ((cfg0.win 4).blk t).view.emb (ix1 cc) = ix1 e := by
    obtain ⟨-, -, -, -, -, -, -, -, -, e0, -⟩ := inIndex t
    funext a; apply Fin.ext
    match a with
    | ⟨0, _⟩ => show win0_4.index t (0 : Fin 1) * 128 + 1 * cc.val = e.val; omega
  rw [h]

/-- The key bias block, likewise. -/
theorem bkBlock_read (c : Dev nD) (t : Fin cfg0.N) (cc : Fin 128) (e : Fin 1024) (he : e.val = t.val / 4 % 8 * 128 + cc.val) :
    (iblk m c 5 t : S128.Idx → EReal) (ix1 cc) = (V m c main_v13 : S1024.Idx → EReal) (ix1 e) := by
  show (V m c main_v13 : S1024.Idx → EReal) (((cfg0.win 5).blk t).view.emb (ix1 cc)) = _
  have h : ((cfg0.win 5).blk t).view.emb (ix1 cc) = ix1 e := by
    obtain ⟨-, -, -, -, -, -, -, -, -, -, e0, -⟩ := inIndex t
    funext a; apply Fin.ext
    match a with
    | ⟨0, _⟩ => show win0_5.index t (0 : Fin 1) * 128 + 1 * cc.val = e.val; omega
  rw [h]

/-- The value bias block, likewise. -/
theorem bvBlock_read (c : Dev nD) (t : Fin cfg0.N) (cc : Fin 128) (e : Fin 1024) (he : e.val = t.val / 4 % 8 * 128 + cc.val) :
    (iblk m c 6 t : S128.Idx → EReal) (ix1 cc) = (V m c main_v14 : S1024.Idx → EReal) (ix1 e) := by
  show (V m c main_v14 : S1024.Idx → EReal) (((cfg0.win 6).blk t).view.emb (ix1 cc)) = _
  have h : ((cfg0.win 6).blk t).view.emb (ix1 cc) = ix1 e := by
    obtain ⟨-, -, -, -, -, -, -, -, -, -, -, e0⟩ := inIndex t
    funext a; apply Fin.ext
    match a with
    | ⟨0, _⟩ => show win0_6.index t (0 : Fin 1) * 128 + 1 * cc.val = e.val; omega
  rw [h]

/-! ## The input blocks in terms of the arguments

  Each block read composed with what the region finds in the staged array. -/

theorem slab_apply (c : Dev nD) (t : Fin cfg0.N) (s : Fin 2048) (j : Fin 1024) (n : Fin 2) (hn : n.val = t.val / 32) :
    (iblk m c 0 t : S1x2048x1024.Idx → EReal) (ix3 0 s j) = argX m c (ix3 s n j) :=
  (slab_read m c t s j n hn).trans (entry_x m c n s j)

theorem wqBlock_apply (c : Dev nD) (t : Fin cfg0.N) (j : Fin 1024) (cc : Fin 128) (e : Fin 1024) (he : e.val = t.val / 4 % 8 * 128 + cc.val) :
    (iblk m c 1 t : S1024x128.Idx → EReal) (ix2 j cc) = (argW m c (ix2 j (wcol 0 e)) : EReal) * scale :=
  (wqBlock_read m c t j cc e he).trans (entry_wq m c j e)

theorem wkBlock_apply (c : Dev nD) (t : Fin cfg0.N) (j : Fin 1024) (cc : Fin 128) (e : Fin 1024) (he : e.val = t.val / 4 % 8 * 128 + cc.val) :
    (iblk m c 2 t : S1024x128.Idx → EReal) (ix2 j cc) = argW m c (ix2 j (wcol 1 e)) :=
  (wkBlock_read m c t j cc e he).trans (entry_wk m c j e)

theorem wvBlock_apply (c : Dev nD) (t : Fin cfg0.N) (j : Fin 1024) (cc : Fin 128) (e : Fin 1024) (he : e.val = t.val / 4 % 8 * 128 + cc.val) :
    (iblk m c 3 t : S1024x128.Idx → EReal) (ix2 j cc) = argW m c (ix2 j (wcol 2 e)) :=
  (wvBlock_read m c t j cc e he).trans (entry_wv m c j e)

theorem bqBlock_apply (c : Dev nD) (t : Fin cfg0.N) (cc : Fin 128) (e : Fin 1024) (he : e.val = t.val / 4 % 8 * 128 + cc.val) :
    (iblk m c 4 t : S128.Idx → EReal) (ix1 cc) = (argB m c (ix1 (wcol 0 e)) : EReal) * scale :=
  (bqBlock_read m c t cc e he).trans (entry_bq m c e)

theorem bkBlock_apply (c : Dev nD) (t : Fin cfg0.N) (cc : Fin 128) (e : Fin 1024) (he : e.val = t.val / 4 % 8 * 128 + cc.val) :
    (iblk m c 5 t : S128.Idx → EReal) (ix1 cc) = argB m c (ix1 (wcol 1 e)) :=
  (bkBlock_read m c t cc e he).trans (entry_bk m c e)

theorem bvBlock_apply (c : Dev nD) (t : Fin cfg0.N) (cc : Fin 128) (e : Fin 1024) (he : e.val = t.val / 4 % 8 * 128 + cc.val) :
    (iblk m c 6 t : S128.Idx → EReal) (ix1 cc) = argB m c (ix1 (wcol 2 e)) :=
  (bvBlock_read m c t cc e he).trans (entry_bv m c e)

/-! ## The output window's blocks -/

/-- An index of the output array is in point t's block iff each coordinate is in the block's range on its axis. -/
theorem mem_outBlock (t : Fin cfg0.N) (i : S2048x2048.Idx) :
    i ∈ ((cfg0.win 7).blk t).view.set ↔ ∀ a : Fin 2, win0_7.index t a * S512x128.size a ≤ (i a).val ∧ (i a).val < win0_7.index t a * S512x128.size a + S512x128.size a := by
  show i ∈ ((View.whole main_v15).slice (win0_7.rect t)).set ↔ _
  rw [View.set_slice_whole, Rect.mem_set_unit]
  exact Iff.rfl

/-- The 64 blocks of 512 × 128 tile the 2048 × 2048 output: the index i lies in the block of the point whose
    column block is (i 1) / 128 and whose row block is (i 0) / 512, and every point writes its block back. -/
theorem outBlocks_cover (i : S2048x2048.Idx) : ∃ t : Fin cfg0.N, (cfg0.win 7).flush t = true ∧ i ∈ ((cfg0.win 7).blk t).view.set := by
  have hi0 : (i 0).val < 2048 := (i 0).isLt
  have hi1 : (i 1).val < 2048 := (i 1).isLt
  have hlt : (i 1).val / 128 * 4 + (i 0).val / 512 < cfg0.N := by show _ < 64; omega
  obtain ⟨q0, q1⟩ := outIndex ⟨_, hlt⟩
  have r0 : win0_7.index ⟨_, hlt⟩ (0 : Fin 2) = ((i 1).val / 128 * 4 + (i 0).val / 512) % 4 := q0
  have r1 : win0_7.index ⟨_, hlt⟩ (1 : Fin 2) = ((i 1).val / 128 * 4 + (i 0).val / 512) / 4 := q1
  refine ⟨⟨_, hlt⟩, flush0_7 _, ?_⟩
  rw [mem_outBlock]
  intro a
  match a with
  | ⟨0, _⟩ => show win0_7.index ⟨_, hlt⟩ (0 : Fin 2) * 512 ≤ (i 0).val ∧ (i 0).val < win0_7.index ⟨_, hlt⟩ (0 : Fin 2) * 512 + 512; omega
  | ⟨1, _⟩ => show win0_7.index ⟨_, hlt⟩ (1 : Fin 2) * 128 ≤ (i 1).val ∧ (i 1).val < win0_7.index ⟨_, hlt⟩ (1 : Fin 2) * 128 + 128; omega

/-- Where an index inside point t's output block lands in the array: block index times block size plus the
    coordinate inside the block, on each axis. -/
theorem outBlock_emb (t : Fin cfg0.N) (y : S512x128.Idx) (a : Fin 2) :
    ((((cfg0.win 7).blk t).view.emb y) a).val = win0_7.index t a * S512x128.size a + 1 * (y a).val := by
  rfl

end FusedAttention

end
-- ==== Proof.Payloads.lean ====
/-
  The kernel body's pure values read at an index.

  Keys, values and queries of a tile are affine in the loaded block: at row `r` and lane `cc` the sum over the 1024
  embedding coordinates of the block's row times the weight's column, plus the bias at the lane.  The output tile is, on
  each 64-lane half, the attention of that head: the scores of the query row against every key row contract the head's 64
  lanes, the row's greatest score (folded from minus infinity) is subtracted, the exponentials weigh the values' lane,
  and the weighted sum is divided once by the sum of the weights.
-/
import proofs.«408540_j45543833207190_3_alg».proof.Proof.Spec
import proofs.«408540_j45543833207190_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace FusedAttention

open Cert.KernelIdeal Cert.KernelIdeal.Gen Idealize.ShloMosaic Idealize.ShloMosaic.ValueIdx
open scoped BigOperators

/-- Lane `d` of the head (the 64-lane half of a 128-lane tile) that holds lane `cc`. -/
def lane (cc : Fin 128) (d : Fin 64) : Fin 128 := ⟨cc.val / 64 * 64 + d.val, by omega⟩

/-- One head's attention on a query tile against a plane's keys and values, at row `r` and lane `cc`. -/
def headAttn (q : (⟨2, ![512, 128]⟩ : Shape).Idx → EReal) (K V : (⟨2, ![2048, 128]⟩ : Shape).Idx → EReal) (r : Fin 512) (cc : Fin 128) : EReal :=
  Ideal.div (∑ t : Fin 2048, Ideal.exp ((∑ d : Fin 64, q (ix2 r (lane cc d)) * K (ix2 t (lane cc d))) - (Finset.univ : Finset (Fin 2048)).fold max negInf (fun t' => ∑ d : Fin 64, q (ix2 r (lane cc d)) * K (ix2 t' (lane cc d)))) * V (ix2 t cc))
    (∑ t : Fin 2048, Ideal.exp ((∑ d : Fin 64, q (ix2 r (lane cc d)) * K (ix2 t (lane cc d))) - (Finset.univ : Finset (Fin 2048)).fold max negInf (fun t' => ∑ d : Fin 64, q (ix2 r (lane cc d)) * K (ix2 t' (lane cc d)))))

/-! ### The column forms of a cast and a broadcast -/

/-- An `[a]` array cast to the column `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ### A row's maximum and a row's sum -/

/-- A row's greatest entry, folded from minus infinity. -/
theorem rowMax_apply (s : FVec Ideal S512x2048 .f32) (r : Fin 512) :
    multiReduction (F := Ideal) .maximumf [1] S512 s 0xFF800000#32 reduces_S512x2048_S512 (.inl rfl) rfl (ix1 r)
      = (Finset.univ : Finset (Fin 2048)).fold max negInf (fun t => s (ix2 r t)) := by
  refine (Ideal.multiReduction_maximumf_single _ _ _ _ _ _).trans ?_
  show (Finset.univ : Finset (Fin 2048)).fold max negInf (s ∘ reduces_S512x2048_S512.lift (ix1 r)) = _
  congr 1
  funext t
  exact congrArg s (funext fun ax => Fin.ext (by match ax with | ⟨0, _⟩ => rfl | ⟨1, _⟩ => rfl))

/-- A row's sum, started from the zero word. -/
theorem rowSum_apply (e : FVec Ideal S512x2048 .f32) (r : Fin 512) :
    multiReduction (F := Ideal) .add [1] S512 e 0x00000000#32 reduces_S512x2048_S512 (.inl rfl) rfl (ix1 r)
      = ∑ t : Fin 2048, e (ix2 r t) := by
  refine (Ideal.multiReduction_add_single _ _ _ _ _ _).trans ?_
  show ∑ t : Fin 2048, e (reduces_S512x2048_S512.lift (ix1 r) t) = _
  refine Finset.sum_congr rfl fun t _ => ?_
  exact congrArg e (funext fun ax => Fin.ext (by match ax with | ⟨0, _⟩ => rfl | ⟨1, _⟩ => rfl))

/-! ### A plane's rows times a weight block -/

theorem lhs_plane_0 (i : S2048x128.Idx) (q : dot_S2048x1024_S1024x128_S2048x128_1_0_0_1_n_n.contr.Idx) :
    (dot_S2048x1024_S1024x128_S2048x128_1_0_0_1_n_n.lhsIdx i q 0).val = (i 0).val := by
  unfold DotDims.lhsIdx
  rw [dif_neg (show ¬(0 : Fin S2048x1024.rank) ∈ dot_S2048x1024_S1024x128_S2048x128_1_0_0_1_n_n.lhsBatch by decide), dif_pos (show (0 : Fin S2048x1024.rank) ∈ dot_S2048x1024_S1024x128_S2048x128_1_0_0_1_n_n.lhsNonContracting by decide)]
  rfl
theorem lhs_plane_1 (i : S2048x128.Idx) (q : dot_S2048x1024_S1024x128_S2048x128_1_0_0_1_n_n.contr.Idx) :
    (dot_S2048x1024_S1024x128_S2048x128_1_0_0_1_n_n.lhsIdx i q 1).val = (q ⟨0, by decide⟩).val :=
  dot_S2048x1024_S1024x128_S2048x128_1_0_0_1_n_n.lhsIdx_val_of_single rfl i q
theorem rhs_plane_0 (i : S2048x128.Idx) (q : dot_S2048x1024_S1024x128_S2048x128_1_0_0_1_n_n.contr.Idx) :
    (dot_S2048x1024_S1024x128_S2048x128_1_0_0_1_n_n.rhsIdx i q 0).val = (q ⟨0, by decide⟩).val :=
  dot_S2048x1024_S1024x128_S2048x128_1_0_0_1_n_n.rhsIdx_val_of_single rfl i q
theorem rhs_plane_1 (i : S2048x128.Idx) (q : dot_S2048x1024_S1024x128_S2048x128_1_0_0_1_n_n.contr.Idx) :
    (dot_S2048x1024_S1024x128_S2048x128_1_0_0_1_n_n.rhsIdx i q 1).val = (i 1).val := by
  unfold DotDims.rhsIdx
  rw [dif_neg (show ¬(1 : Fin S1024x128.rank) ∈ dot_S2048x1024_S1024x128_S2048x128_1_0_0_1_n_n.rhsBatch by decide), dif_pos (show (1 : Fin S1024x128.rank) ∈ dot_S2048x1024_S1024x128_S2048x128_1_0_0_1_n_n.rhsNonContracting by decide)]
  rfl

/-- The product into the zero splat, at row `r` and column `c`: the sum over the contracted axis. -/
theorem matmul_plane_apply (a : FVec Ideal S2048x1024 .bf16) (b : FVec Ideal S1024x128 .bf16) (r : Fin 2048) (c : Fin 128) :
    matmul dot_S2048x1024_S1024x128_S2048x128_1_0_0_1_n_n none a b (constant (F := Ideal) S2048x128 .f32 0x00000000#32) (ix2 r c)
      = ∑ k : Fin 1024, a (ix2 r k) * b (ix2 k c) := by
  simp only [matmul]
  rw [Ideal.matmul_constant_zero_apply, ← Equiv.sum_comp (contrEquiv1 dot_S2048x1024_S1024x128_S2048x128_1_0_0_1_n_n 1024 rfl rfl).symm]
  refine Finset.sum_congr rfl fun k _ => ?_
  have hk := contrEquiv1_symm_val dot_S2048x1024_S1024x128_S2048x128_1_0_0_1_n_n 1024 rfl rfl k
  have el : dot_S2048x1024_S1024x128_S2048x128_1_0_0_1_n_n.lhsIdx (ix2 r c) ((contrEquiv1 dot_S2048x1024_S1024x128_S2048x128_1_0_0_1_n_n 1024 rfl rfl).symm k) = ix2 r k := funext fun ax => Fin.ext (by
    match ax with
    | ⟨0, _⟩ => exact lhs_plane_0 _ _
    | ⟨1, _⟩ => exact (lhs_plane_1 _ _).trans hk)
  have er : dot_S2048x1024_S1024x128_S2048x128_1_0_0_1_n_n.rhsIdx (ix2 r c) ((contrEquiv1 dot_S2048x1024_S1024x128_S2048x128_1_0_0_1_n_n 1024 rfl rfl).symm k) = ix2 k c := funext fun ax => Fin.ext (by
    match ax with
    | ⟨0, _⟩ => exact (rhs_plane_0 _ _).trans hk
    | ⟨1, _⟩ => exact rhs_plane_1 _ _)
  rw [el, er]

/-! ### A query tile's rows times a weight block -/

theorem lhs_tile_0 (i : S512x128.Idx) (q : dot_S512x1024_S1024x128_S512x128_1_0_0_1_n_n.contr.Idx) :
    (dot_S512x1024_S1024x128_S512x128_1_0_0_1_n_n.lhsIdx i q 0).val = (i 0).val := by
  unfold DotDims.lhsIdx
  rw [dif_neg (show ¬(0 : Fin S512x1024.rank) ∈ dot_S512x1024_S1024x128_S512x128_1_0_0_1_n_n.lhsBatch by decide), dif_pos (show (0 : Fin S512x1024.rank) ∈ dot_S512x1024_S1024x128_S512x128_1_0_0_1_n_n.lhsNonContracting by decide)]
  rfl
theorem lhs_tile_1 (i : S512x128.Idx) (q : dot_S512x1024_S1024x128_S512x128_1_0_0_1_n_n.contr.Idx) :
    (dot_S512x1024_S1024x128_S512x128_1_0_0_1_n_n.lhsIdx i q 1).val = (q ⟨0, by decide⟩).val :=
  dot_S512x1024_S1024x128_S512x128_1_0_0_1_n_n.lhsIdx_val_of_single rfl i q
theorem rhs_tile_0 (i : S512x128.Idx) (q : dot_S512x1024_S1024x128_S512x128_1_0_0_1_n_n.contr.Idx) :
    (dot_S512x1024_S1024x128_S512x128_1_0_0_1_n_n.rhsIdx i q 0).val = (q ⟨0, by decide⟩).val :=
  dot_S512x1024_S1024x128_S512x128_1_0_0_1_n_n.rhsIdx_val_of_single rfl i q
theorem rhs_tile_1 (i : S512x128.Idx) (q : dot_S512x1024_S1024x128_S512x128_1_0_0_1_n_n.contr.Idx) :
    (dot_S512x1024_S1024x128_S512x128_1_0_0_1_n_n.rhsIdx i q 1).val = (i 1).val := by
  unfold DotDims.rhsIdx
  rw [dif_neg (show ¬(1 : Fin S1024x128.rank) ∈ dot_S512x1024_S1024x128_S512x128_1_0_0_1_n_n.rhsBatch by decide), dif_pos (show (1 : Fin S1024x128.rank) ∈ dot_S512x1024_S1024x128_S512x128_1_0_0_1_n_n.rhsNonContracting by decide)]
  rfl

/-- The product into the zero splat, at row `r` and column `c`: the sum over the contracted axis. -/
theorem matmul_tile_apply (a : FVec Ideal S512x1024 .bf16) (b : FVec Ideal S1024x128 .bf16) (r : Fin 512) (c : Fin 128) :
    matmul dot_S512x1024_S1024x128_S512x128_1_0_0_1_n_n none a b (constant (F := Ideal) S512x128 .f32 0x00000000#32) (ix2 r c)
      = ∑ k : Fin 1024, a (ix2 r k) * b (ix2 k c) := by
  simp only [matmul]
  rw [Ideal.matmul_constant_zero_apply, ← Equiv.sum_comp (contrEquiv1 dot_S512x1024_S1024x128_S512x128_1_0_0_1_n_n 1024 rfl rfl).symm]
  refine Finset.sum_congr rfl fun k _ => ?_
  have hk := contrEquiv1_symm_val dot_S512x1024_S1024x128_S512x128_1_0_0_1_n_n 1024 rfl rfl k
  have el : dot_S512x1024_S1024x128_S512x128_1_0_0_1_n_n.lhsIdx (ix2 r c) ((contrEquiv1 dot_S512x1024_S1024x128_S512x128_1_0_0_1_n_n 1024 rfl rfl).symm k) = ix2 r k := funext fun ax => Fin.ext (by
    match ax with
    | ⟨0, _⟩ => exact lhs_tile_0 _ _
    | ⟨1, _⟩ => exact (lhs_tile_1 _ _).trans hk)
  have er : dot_S512x1024_S1024x128_S512x128_1_0_0_1_n_n.rhsIdx (ix2 r c) ((contrEquiv1 dot_S512x1024_S1024x128_S512x128_1_0_0_1_n_n 1024 rfl rfl).symm k) = ix2 k c := funext fun ax => Fin.ext (by
    match ax with
    | ⟨0, _⟩ => exact (rhs_tile_0 _ _).trans hk
    | ⟨1, _⟩ => exact rhs_tile_1 _ _)
  rw [el, er]

/-! ### A head's queries against its keys: both operands contract their 64 lanes -/

theorem lhs_score_0 (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem lhs_score_1 (i : S512x2048.Idx) (q : dot_S512x64_S2048x64_S512x2048_1_1_0_0_n_n.contr.Idx) :
    (dot_S512x64_S2048x64_S512x2048_1_1_0_0_n_n.lhsIdx i q 1).val = (q ⟨0, by decide⟩).val :=
  dot_S512x64_S2048x64_S512x2048_1_1_0_0_n_n.lhsIdx_val_of_single rfl i q
theorem rhs_score_0 (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem rhs_score_1 (i : S512x2048.Idx) (q : dot_S512x64_S2048x64_S512x2048_1_1_0_0_n_n.contr.Idx) :
    (dot_S512x64_S2048x64_S512x2048_1_1_0_0_n_n.rhsIdx i q 1).val = (q ⟨0, by decide⟩).val :=
  dot_S512x64_S2048x64_S512x2048_1_1_0_0_n_n.rhsIdx_val_of_single rfl i q

/-- The score of query row `r` against key row `t`: the sum over the head's 64 lanes. -/
theorem matmul_score_apply (a : FVec Ideal S512x64 .bf16) (b : FVec Ideal S2048x64 .bf16) (r : Fin 512) (t : Fin 2048) :
    matmul dot_S512x64_S2048x64_S512x2048_1_1_0_0_n_n none a b (constant (F := Ideal) S512x2048 .f32 0x00000000#32) (ix2 r t)
      = ∑ d : Fin 64, a (ix2 r d) * b (ix2 t d) := by
  simp only [matmul]
  rw [Ideal.matmul_constant_zero_apply, ← Equiv.sum_comp (contrEquiv1 dot_S512x64_S2048x64_S512x2048_1_1_0_0_n_n 64 rfl rfl).symm]
  refine Finset.sum_congr rfl fun k _ => ?_
  have hk := contrEquiv1_symm_val dot_S512x64_S2048x64_S512x2048_1_1_0_0_n_n 64 rfl rfl k
  have el : dot_S512x64_S2048x64_S512x2048_1_1_0_0_n_n.lhsIdx (ix2 r t) ((contrEquiv1 dot_S512x64_S2048x64_S512x2048_1_1_0_0_n_n 64 rfl rfl).symm k) = ix2 r k := funext fun ax => Fin.ext (by
    match ax with
    | ⟨0, _⟩ => exact lhs_score_0 _ _
    | ⟨1, _⟩ => exact (lhs_score_1 _ _).trans hk)
  have er : dot_S512x64_S2048x64_S512x2048_1_1_0_0_n_n.rhsIdx (ix2 r t) ((contrEquiv1 dot_S512x64_S2048x64_S512x2048_1_1_0_0_n_n 64 rfl rfl).symm k) = ix2 t k := funext fun ax => Fin.ext (by
    match ax with
    | ⟨0, _⟩ => exact rhs_score_0 _ _
    | ⟨1, _⟩ => exact (rhs_score_1 _ _).trans hk)
  rw [el, er]

/-! ### The weights' rows times a head's values -/

theorem lhs_weigh_0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem lhs_weigh_1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
theorem rhs_weigh_0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
theorem rhs_weigh_1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- The product into the zero splat, at row `r` and column `c`: the sum over the contracted axis. -/
theorem matmul_weigh_apply (a : FVec Ideal S512x2048 .bf16) (b : FVec Ideal S2048x64 .bf16) (r : Fin 512) (c : Fin 64) :
    matmul dot_S512x2048_S2048x64_S512x64_1_0_0_1_n_n none a b (constant (F := Ideal) S512x64 .f32 0x00000000#32) (ix2 r c)
      = ∑ k : Fin 2048, a (ix2 r k) * b (ix2 k c) := by
  simp only [matmul]
  rw [Ideal.matmul_constant_zero_apply, ← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 r c) ((contrEquiv1 dot_S512x2048_S2048x64_S512x64_1_0_0_1_n_n 2048 rfl rfl).symm k) = ix2 r k := funext fun ax => Fin.ext (by
    match ax with
    | ⟨0, _⟩ => exact lhs_weigh_0 _ _
    | ⟨1, _⟩ => exact (lhs_weigh_1 _ _).trans hk)
  have er : dot_S512x2048_S2048x64_S512x64_1_0_0_1_n_n.rhsIdx (ix2 r c) ((contrEquiv1 dot_S512x2048_S2048x64_S512x64_1_0_0_1_n_n 2048 rfl rfl).symm k) = ix2 k c := funext fun ax => Fin.ext (by
    match ax with
    | ⟨0, _⟩ => exact (rhs_weigh_0 _ _).trans hk
    | ⟨1, _⟩ => exact rhs_weigh_1 _ _)
  rw [el, er]

/-! ### The affine payloads: keys, values and queries -/

/-- The bias, cast to one row and spread down `a` rows, reads the bias at the lane. -/
theorem biasRows_apply {a : ℕ} (b : FVec Ideal S128 .f32) (h1 : S128.ShapeCasts S128) (h2 : S128.ShapeCasts S1x128)
    (h3 : S1x128.Broadcasts ⟨2, ![a, 128]⟩) (r : Fin a) (cc : Fin 128) :
    broadcastTo ⟨2, ![a, 128]⟩ (shapeCast S1x128 (shapeCast S128 b h1) h2) h3 (ix2 r cc) = b (ix1 cc) := by
  rw [broadcastTo_1b_ab_apply, shapeCast_a_1a_apply, shapeCast_self]

/-- A whole plane's rows through a weight block and a bias. -/
theorem planeAffine_apply (x : FVec Ideal S1x2048x1024 .bf16) (w : FVec Ideal S1024x128 .bf16) (b : FVec Ideal S128 .f32)
    (r : Fin 2048) (cc : Fin 128) :
    shapeCast S2048x128 (truncf .bf16 (addf (matmul dot_S2048x1024_S1024x128_S2048x128_1_0_0_1_n_n none (shapeCast S2048x1024 x shapeCasts_S1x2048x1024_S2048x1024)
        (shapeCast S1024x128 w shapeCasts_S1024x128_S1024x128) (constant S2048x128 .f32 0x00000000#32))
      (broadcastTo S2048x128 (shapeCast S1x128 (shapeCast S128 b shapeCasts_S128_S128) shapeCasts_S128_S1x128) broadcasts_S1x128_S2048x128))
      bitsLt_bf16_f32) shapeCasts_S2048x128_S2048x128 (ix2 r cc)
      = (∑ j : Fin 1024, x (ix3 0 r j) * w (ix2 j cc)) + b (ix1 cc) := by
  rw [shapeCast_self, truncf_apply, addf_apply, matmul_plane_apply, biasRows_apply, shapeCast_self]
  refine congrArg (· + b (ix1 cc)) (Finset.sum_congr rfl fun j _ => ?_)
  rw [shapeCast_1ab_ab_apply]

theorem keyPayload_apply (v51 : Vec Ideal S1x2048x1024 .bf16) (v53 : Vec Ideal S1024x128 .bf16) (v56 : Vec Ideal S128 .f32) (r : Fin 2048) (cc : Fin 128) :
    k0_pay3 (F := Ideal) v51 v53 v56 (ix2 r cc) = (∑ j : Fin 1024, v51 (ix3 0 r j) * v53 (ix2 j cc)) + v56 (ix1 cc) :=
  planeAffine_apply v51 v53 v56 r cc

theorem valuePayload_apply (v51 : Vec Ideal S1x2048x1024 .bf16) (v61 : Vec Ideal S1024x128 .bf16) (v64 : Vec Ideal S128 .f32) (r : Fin 2048) (cc : Fin 128) :
    k0_pay4 (F := Ideal) v51 v61 v64 (ix2 r cc) = (∑ j : Fin 1024, v51 (ix3 0 r j) * v61 (ix2 j cc)) + v64 (ix1 cc) :=
  planeAffine_apply v51 v61 v64 r cc

/-- A query tile's rows through a weight block and a bias. -/
theorem tileAffine_apply (x : FVec Ideal S1x512x1024 .bf16) (w : FVec Ideal S1024x128 .bf16) (b : FVec Ideal S128 .f32)
    (r : Fin 512) (cc : Fin 128) :
    truncf .bf16 (addf (matmul dot_S512x1024_S1024x128_S512x128_1_0_0_1_n_n none (shapeCast S512x1024 x shapeCasts_S1x512x1024_S512x1024)
        (shapeCast S1024x128 w shapeCasts_S1024x128_S1024x128) (constant S512x128 .f32 0x00000000#32))
      (broadcastTo S512x128 (shapeCast S1x128 (shapeCast S128 b shapeCasts_S128_S128) shapeCasts_S128_S1x128) broadcasts_S1x128_S512x128))
      bitsLt_bf16_f32 (ix2 r cc)
      = (∑ j : Fin 1024, x (ix3 0 r j) * w (ix2 j cc)) + b (ix1 cc) := by
  rw [truncf_apply, addf_apply, matmul_tile_apply, biasRows_apply, shapeCast_self]
  refine congrArg (· + b (ix1 cc)) (Finset.sum_congr rfl fun j _ => ?_)
  rw [shapeCast_1ab_ab_apply]

theorem queryPayload_apply (v6 : Vec Ideal S1x512x1024 .bf16) (v8 : Vec Ideal S1024x128 .bf16) (v11 : Vec Ideal S128 .f32) (r : Fin 512) (cc : Fin 128) :
    k0_pay5 (F := Ideal) v6 v8 v11 (ix2 r cc) = (∑ j : Fin 1024, v6 (ix3 0 r j) * v8 (ix2 j cc)) + v11 (ix1 cc) :=
  tileAffine_apply v6 v8 v11 r cc

/-! ### One head after its scores -/

/-- The scores less their row's maximum, exponentiated: the weights before they are normalised. -/
def rowShift (s : FVec Ideal S512x2048 .f32) : FVec Ideal S512x2048 .f32 :=
  exp (subf s (broadcastTo S512x2048 (shapeCast S512x1 (multiReduction .maximumf [1] S512 s 0xFF800000#32 reduces_S512x2048_S512 (.inl rfl) rfl) shapeCasts_S512_S512x1) broadcasts_S512x1_S512x2048))

theorem rowShift_apply (s : FVec Ideal S512x2048 .f32) (r : Fin 512) (t : Fin 2048) :
    rowShift s (ix2 r t) = Ideal.exp (s (ix2 r t) - (Finset.univ : Finset (Fin 2048)).fold max negInf (fun t' => s (ix2 r t'))) := by
  show Ideal.exp (s (ix2 r t) - broadcastTo S512x2048 (shapeCast S512x1 (multiReduction (F := Ideal) .maximumf [1] S512 s 0xFF800000#32 reduces_S512x2048_S512 (.inl rfl) rfl) shapeCasts_S512_S512x1) broadcasts_S512x1_S512x2048 (ix2 r t)) = _
  rw [broadcastTo_a1_ab_apply, shapeCast_a_a1_apply, rowMax_apply]

/-- The weights times a head's values, divided by the row's sum of the weights. -/
def headTail (s : FVec Ideal S512x2048 .f32) (v : FVec Ideal S2048x64 .bf16) : FVec Ideal S512x64 .f32 :=
  divf (matmul dot_S512x2048_S2048x64_S512x64_1_0_0_1_n_n none (truncf .bf16 (rowShift s) bitsLt_bf16_f32) v (constant S512x64 .f32 0x00000000#32))
    (broadcastTo S512x64 (shapeCast S512x1 (multiReduction .add [1] S512 (rowShift s) 0x00000000#32 reduces_S512x2048_S512 (.inl rfl) rfl) shapeCasts_S512_S512x1) broadcasts_S512x1_S512x64)

theorem headTail_apply (s : FVec Ideal S512x2048 .f32) (v : FVec Ideal S2048x64 .bf16) (r : Fin 512) (d : Fin 64) :
    headTail s v (ix2 r d) = Ideal.div (∑ t : Fin 2048, rowShift s (ix2 r t) * v (ix2 t d)) (∑ t : Fin 2048, rowShift s (ix2 r t)) := by
  unfold headTail
  rw [divf_apply, matmul_weigh_apply, broadcastTo_a1_ab_apply, shapeCast_a_a1_apply, rowSum_apply]
  rfl

/-- The same with the row of scores and the column of values named. -/
theorem headTail_apply_of (s : FVec Ideal S512x2048 .f32) (v : FVec Ideal S2048x64 .bf16) (r : Fin 512) (d : Fin 64)
    (f g : Fin 2048 → EReal) (hs : ∀ t, s (ix2 r t) = f t) (hv : ∀ t, v (ix2 t d) = g t) :
    headTail s v (ix2 r d)
      = Ideal.div (∑ t : Fin 2048, Ideal.exp (f t - (Finset.univ : Finset (Fin 2048)).fold max negInf f) * g t)
          (∑ t : Fin 2048, Ideal.exp (f t - (Finset.univ : Finset (Fin 2048)).fold max negInf f)) := by
  have hf : (fun t' => s (ix2 r t')) = f := funext hs
  have hw : ∀ t, rowShift s (ix2 r t) = Ideal.exp (f t - (Finset.univ : Finset (Fin 2048)).fold max negInf f) := fun t => by
    rw [rowShift_apply, hf, hs t]
  rw [headTail_apply]
  exact congrArg₂ Ideal.div (Finset.sum_congr rfl fun t _ => by rw [hw t, hv t]) (Finset.sum_congr rfl fun t _ => hw t)

/-- One head: the 64 lanes from `o` of the queries, keys and values. -/
theorem head_apply (o : ℕ) (Q : FVec Ideal S512x128 .bf16) (K V : FVec Ideal S2048x128 .bf16)
    (hq : S512x128.Slices ![0, o] S512x64) (hk : S2048x128.Slices ![0, o] S2048x64) (r : Fin 512) (d : Fin 64) (cc : Fin 128)
    (hcc : cc.val = o + d.val) (ho : cc.val / 64 * 64 = o) :
    headTail (matmul dot_S512x64_S2048x64_S512x2048_1_1_0_0_n_n none (extractStridedSlice S512x64 ![0, o] Q hq) (extractStridedSlice S2048x64 ![0, o] K hk) (constant S512x2048 .f32 0x00000000#32))
        (extractStridedSlice S2048x64 ![0, o] V hk) (ix2 r d)
      = headAttn Q K V r cc :=
  headTail_apply_of _ _ r d (fun t => ∑ d' : Fin 64, Q (ix2 r (lane cc d')) * K (ix2 t (lane cc d'))) (fun t => V (ix2 t cc))
    (fun t => by
      rw [matmul_score_apply]
      refine Finset.sum_congr rfl fun d' _ => ?_
      have hl : (lane cc d').val = o + d'.val := by show cc.val / 64 * 64 + d'.val = o + d'.val; omega
      rw [slice2_axis1_apply o Q hq r d' (lane cc d') hl, slice2_axis1_apply o K hk t d' (lane cc d') hl])
    (fun t => slice2_axis1_apply o V hk t d cc hcc)

/-! ### The output tile: the two heads side by side -/

theorem outPayload_apply (v6 : Vec Ideal S1x512x1024 .bf16) (v8 : Vec Ideal S1024x128 .bf16) (v11 : Vec Ideal S128 .f32) (K V : Vec Ideal S2048x128 .bf16) (r : Fin 512) (cc : Fin 128) :
    k0_pay1 (F := Ideal) (k0_pay6 v6 v8 v11 K V) (k0_pay7 V) (k0_pay8 v6 v8 v11 K) (ix2 r cc) = headAttn (k0_pay5 (F := Ideal) v6 v8 v11) K V r cc := by
  show concatenate S512x128 1 [⟨S512x64, k0_pay6 (F := Ideal) v6 v8 v11 K V⟩, ⟨S512x64, headTail (k0_pay8 (F := Ideal) v6 v8 v11 K) (k0_pay7 V)⟩]
      concatenates_S512x64_S512x64_S512x128_d1 (ix2 r cc) = _
  by_cases h : cc.val < 64
  · -- lanes 0..63: the first head
    refine (concatenate_pair_apply_left 1 _ _ concatenates_S512x64_S512x64_S512x128_d1 (ix2 r cc) rfl (ix2 r ⟨cc.val, h⟩)
      (fun b => by match b with | ⟨0, _⟩ => rfl | ⟨1, _⟩ => rfl)).trans ?_
    exact head_apply 0 (k0_pay5 (F := Ideal) v6 v8 v11) K V slices_S512x128_o0_0_S512x64 slices_S2048x128_o0_0_S2048x64 r ⟨cc.val, h⟩ cc
      (Nat.zero_add _).symm (by omega)
  · -- lanes 64..127: the second head
    have h2 : cc.val - 64 < 64 := by have := cc.isLt; omega
    refine (concatenate_pair_apply_right 1 _ _ concatenates_S512x64_S512x64_S512x128_d1 (ix2 r cc) rfl rfl (ix2 r ⟨cc.val - 64, h2⟩)
      (fun b hb => by
        match b with
        | ⟨0, _⟩ => rfl
        | ⟨1, _⟩ => exact absurd rfl hb)
      (by show cc.val - 64 + 64 = cc.val; omega)).trans ?_
    exact head_apply 64 (k0_pay5 (F := Ideal) v6 v8 v11) K V slices_S512x128_o0_64_S512x64 slices_S2048x128_o0_64_S2048x64 r ⟨cc.val - 64, h2⟩ cc
      (by show cc.val = 64 + (cc.val - 64); omega) (by have := cc.isLt; omega)

end FusedAttention

end
-- ==== Proof.PointValue.lean ====
/-
  What every grid point leaves, in terms of the program's three arguments.

  The 64 points run plane by plane: points 4p, 4p+1, 4p+2, 4p+3 are the four query tiles of plane p (batch member p / 8,
  the two heads whose lanes are columns (p % 8)·128 … (p % 8)·128 + 127 of the embedding).  The plane's first point fills
  the two scratch buffers with the plane's projected keys and values; the later points carry them.  So after ANY point n
  the scratch holds the keys and values of plane n / 4 (induction on n), and every point's output block is the attention
  of its query tile against them: the second arrangement of the attention function at the block's array indices.
-/
import proofs.«408540_j45543833207190_3_alg».proof.Proof.Pieces
import proofs.«408540_j45543833207190_3_alg».proof.Proof.Blocks
import proofs.«408540_j45543833207190_3_alg».proof.Proof.Payloads

set_option maxRecDepth 16384

noncomputable section

namespace FusedAttention

open Cert.KernelIdeal Cert.KernelIdeal.Gen
open Idealize.ShloMosaic Idealize.ShloMosaic.TcCoe Idealize.ShloMosaic.ValueIdx
open Idealize.SL Idealize.SL.Sem
open scoped BigOperators

variable (m : (ℓ : Loc nD τ sig) → Buf (Elt Ideal) ℓ)

/-- The keys of plane `p`: position `y 0`, batch member `p / 8`, embedding coordinate `(p % 8)·128 + y 1`. -/
def planeKeys (c : Dev nD) (p : ℕ) : S2048x128.Idx → EReal := fun y =>
  proj (argX m c) (argW m c) (argB m c) 1 (y 0) ⟨p / 8 % 2, Nat.mod_lt _ (by decide)⟩ ⟨p % 8 * 128 + (y 1).val, by have h : (y 1).val < 128 := (y 1).isLt; omega⟩

/-- The values of plane `p`, likewise. -/
def planeValues (c : Dev nD) (p : ℕ) : S2048x128.Idx → EReal := fun y =>
  proj (argX m c) (argW m c) (argB m c) 2 (y 0) ⟨p / 8 % 2, Nat.mod_lt _ (by decide)⟩ ⟨p % 8 * 128 + (y 1).val, by have h : (y 1).val < 128 := (y 1).isLt; omega⟩

/-- A point's third coordinate is its number modulo 4. -/
theorem tileCoord : ∀ t : Fin cfg0.N, ((grid0.coords t) (2 : Fin 3)).val = t.val % 4 :=
  (by decide +kernel : ∀ t : Fin grid0.N, ((grid0.coords t) (2 : Fin 3)).val = t.val % 4)

theorem nPoints : cfg0.N = 64 := N_0

/-- What a plane's first point projects for the keys is the plane's keys. -/
theorem projectedKeys (c : Dev nD) (t : Fin cfg0.N) :
    k0_pay3 (F := Ideal) (iblk m c 0 t) (iblk m c 2 t) (iblk m c 5 t) = planeKeys m c (t.val / 4) := by
  funext y
  obtain ⟨s, cc, rfl⟩ : ∃ (s : Fin 2048) (cc : Fin 128), y = ix2 s cc := ⟨y 0, y 1, eq_ix2 y⟩
  have hN : t.val < 64 := lt_of_lt_of_eq t.isLt (nPoints)
  refine (keyPayload_apply (iblk m c 0 t) (iblk m c 2 t) (iblk m c 5 t) s cc).trans ?_
  unfold planeKeys proj
  refine congrArg₂ (· + ·) (Finset.sum_congr rfl fun j _ => ?_) ?_
  · refine congrArg₂ (· * ·) ?_ ?_
    · exact slab_apply m c t s j _ (by show t.val / 4 / 8 % 2 = t.val / 32; omega)
    · exact wkBlock_apply m c t j cc _ (by show t.val / 4 % 8 * 128 + cc.val = t.val / 4 % 8 * 128 + cc.val; rfl)
  · exact bkBlock_apply m c t cc _ (by show t.val / 4 % 8 * 128 + cc.val = t.val / 4 % 8 * 128 + cc.val; rfl)

/-- What a plane's first point projects for the values is the plane's values. -/
theorem projectedValues (c : Dev nD) (t : Fin cfg0.N) :
    k0_pay4 (F := Ideal) (iblk m c 0 t) (iblk m c 3 t) (iblk m c 6 t) = planeValues m c (t.val / 4) := by
  funext y
  obtain ⟨s, cc, rfl⟩ : ∃ (s : Fin 2048) (cc : Fin 128), y = ix2 s cc := ⟨y 0, y 1, eq_ix2 y⟩
  have hN : t.val < 64 := lt_of_lt_of_eq t.isLt (nPoints)
  refine (valuePayload_apply (iblk m c 0 t) (iblk m c 3 t) (iblk m c 6 t) s cc).trans ?_
  unfold planeValues proj
  refine congrArg₂ (· + ·) (Finset.sum_congr rfl fun j _ => ?_) ?_
  · refine congrArg₂ (· * ·) ?_ ?_
    · exact slab_apply m c t s j _ (by show t.val / 4 / 8 % 2 = t.val / 32; omega)
    · exact wvBlock_apply m c t j cc _ (by show t.val / 4 % 8 * 128 + cc.val = t.val / 4 % 8 * 128 + cc.val; rfl)
  · exact bvBlock_apply m c t cc _ (by show t.val / 4 % 8 * 128 + cc.val = t.val / 4 % 8 * 128 + cc.val; rfl)

/-- THE CARRIED SCRATCH: after point `n` the two scratch buffers hold the keys and values of plane `n / 4`. -/
theorem scratch_after (c : Dev nD) : ∀ (n : ℕ) (hn : n < cfg0.N),
    (outsAt0 m c n hn).2.1 = planeKeys m c (n / 4) ∧ (outsAt0 m c n hn).2.2 = planeValues m c (n / 4) := by
  intro n
  induction n with
  | zero =>
    intro hn
    rw [outsAt0_A m c ⟨0, hn⟩ (Nat.zero_mod 4)]
    dsimp only
    exact ⟨(firstPoint_keys c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod 4)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩)).trans (projectedKeys m c ⟨0, hn⟩),
      (firstPoint_values c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod 4)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩)).trans (projectedValues m c ⟨0, hn⟩)⟩
  | succ k ih =>
    intro hn
    by_cases h0 : (k + 1) % 4 = 0
    · rw [outsAt0_A m c ⟨k + 1, hn⟩ h0]
      dsimp only
      exact ⟨(firstPoint_keys c (grid0.coords ⟨k + 1, hn⟩) (ms0_0 ⟨k + 1, hn⟩) (hs0_0 ⟨k + 1, hn⟩) (ms0_1 ⟨k + 1, hn⟩) (hs0_1 ⟨k + 1, hn⟩) (ms0_2 ⟨k + 1, hn⟩) (hs0_2 ⟨k + 1, hn⟩) (ms0_3 ⟨k + 1, hn⟩) (hs0_3 ⟨k + 1, hn⟩) (ms0_4 ⟨k + 1, hn⟩) (hs0_4 ⟨k + 1, hn⟩) (ms0_5 ⟨k + 1, hn⟩) (hs0_5 ⟨k + 1, hn⟩) (ms0_6 ⟨k + 1, hn⟩) (hs0_6 ⟨k + 1, hn⟩) (ms0_7 ⟨k + 1, hn⟩) (hs0_7 ⟨k + 1, hn⟩) scM0_0 (Memref.isWhole_whole _) scM0_1 (Memref.isWhole_whole _) ((hcond0_0 ⟨k + 1, hn⟩).mpr h0) (iblk m c 0 ⟨k + 1, hn⟩) (iblk m c 1 ⟨k + 1, hn⟩) (iblk m c 2 ⟨k + 1, hn⟩) (iblk m c 3 ⟨k + 1, hn⟩) (iblk m c 4 ⟨k + 1, hn⟩) (iblk m c 5 ⟨k + 1, hn⟩) (iblk m c 6 ⟨k + 1, hn⟩)).trans (projectedKeys m c ⟨k + 1, hn⟩),
        (firstPoint_values c (grid0.coords ⟨k + 1, hn⟩) (ms0_0 ⟨k + 1, hn⟩) (hs0_0 ⟨k + 1, hn⟩) (ms0_1 ⟨k + 1, hn⟩) (hs0_1 ⟨k + 1, hn⟩) (ms0_2 ⟨k + 1, hn⟩) (hs0_2 ⟨k + 1, hn⟩) (ms0_3 ⟨k + 1, hn⟩) (hs0_3 ⟨k + 1, hn⟩) (ms0_4 ⟨k + 1, hn⟩) (hs0_4 ⟨k + 1, hn⟩) (ms0_5 ⟨k + 1, hn⟩) (hs0_5 ⟨k + 1, hn⟩) (ms0_6 ⟨k + 1, hn⟩) (hs0_6 ⟨k + 1, hn⟩) (ms0_7 ⟨k + 1, hn⟩) (hs0_7 ⟨k + 1, hn⟩) scM0_0 (Memref.isWhole_whole _) scM0_1 (Memref.isWhole_whole _) ((hcond0_0 ⟨k + 1, hn⟩).mpr h0) (iblk m c 0 ⟨k + 1, hn⟩) (iblk m c 1 ⟨k + 1, hn⟩) (iblk m c 2 ⟨k + 1, hn⟩) (iblk m c 3 ⟨k + 1, hn⟩) (iblk m c 4 ⟨k + 1, hn⟩) (iblk m c 5 ⟨k + 1, hn⟩) (iblk m c 6 ⟨k + 1, hn⟩)).trans (projectedValues m c ⟨k + 1, hn⟩)⟩
    · rw [outsAt0_B m c ⟨k + 1, hn⟩ h0]
      dsimp only
      have hp : (k + 1) / 4 = k / 4 := by omega
      rw [hp]
      exact ih (Nat.lt_of_succ_lt hn)

/-- The output block of a point, as attention of its query tile against the plane's keys and values. -/
theorem out_after (c : Dev nD) (t : Fin cfg0.N) :
    (outsAt0 m c t.val t.isLt).1
      = outBlock (F := Ideal) (queryTile (grid0.coords t) (iblk m c 0 t)) (iblk m c 1 t) (iblk m c 4 t) (planeKeys m c (t.val / 4)) (planeValues m c (t.val / 4)) := by
  by_cases h0 : t.val % 4 = 0
  · rw [outsAt0_A m c t h0]
    dsimp only
    refine (firstPoint_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t)).trans ?_
    rw [projectedKeys m c t, projectedValues m c t]
  · rw [outsAt0_B m c t h0]
    dsimp only
    have hN : t.val < 64 := lt_of_lt_of_eq t.isLt (nPoints)
    have hpos : t.val - 1 < cfg0.N := Nat.lt_of_le_of_lt (Nat.sub_le _ _) t.isLt
    obtain ⟨hk, hv⟩ := scratch_after m c (t.val - 1) hpos
    have hp : (t.val - 1) / 4 = t.val / 4 := by omega
    rw [hp] at hk hv
    refine (laterPoint_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) _ _).trans ?_
    rw [hk, hv]

end FusedAttention

end
-- ==== Proof.ArrayValue.lean ====
/-
  The kernel program's result array as one function of its three arguments.

  Point t writes back block (t % 4, t / 4) of the [2048, 2048] array: rows (t % 4)·512 …, columns (t / 4)·128 ….  Column
  (t / 4)·128 + cc is batch member t / 32 and embedding coordinate (t / 4 % 8)·128 + cc, so every entry of the array is the
  second arrangement of the attention function at (row, column / 1024, column % 1024).  The 64 blocks tile the array, and
  the host's closing reshape to [2048, 2, 1024] keeps the row-major position: entry (s, n, e) is the array's (s, n·1024 + e).
-/
import proofs.«408540_j45543833207190_3_alg».proof.Proof.PointValue
import Idealize.ShloMosaic.Lib.StableHlo.Run

set_option maxRecDepth 16384

noncomputable section

namespace FusedAttention

open Cert.KernelIdeal Cert.KernelIdeal.Gen
open Idealize.ShloMosaic Idealize.ShloMosaic.TcCoe Idealize.ShloMosaic.Tactic Idealize.ShloMosaic.ValueIdx
open Idealize.SL Idealize.SL.Sem
open scoped BigOperators

variable (m : (ℓ : Loc nD τ sig) → Buf (Elt Ideal) ℓ) (ρ : Dev nD → PrngReg)

/-- One head's attention is determined by its scores and its values along the key axis. -/
theorem headAttn_congr (q : S512x128.Idx → EReal) (K V : S2048x128.Idx → EReal) (r : Fin 512) (cc : Fin 128)
    (f v : Fin 2048 → EReal) (hf : ∀ t, (∑ d : Fin 64, q (ix2 r (lane cc d)) * K (ix2 t (lane cc d))) = f t)
    (hv : ∀ t, V (ix2 t cc) = v t) :
    headAttn q K V r cc = Ideal.div (∑ t, Ideal.exp (f t - rowMax f) * v t) (∑ t, Ideal.exp (f t - rowMax f)) := by
  unfold headAttn rowMax
  simp only [hf, hv]

theorem planeKeys_apply (c : Dev nD) (p : ℕ) (t' : Fin 2048) (l : Fin 128) (n : Fin 2) (e : Fin 1024)
    (hn : n.val = p / 8 % 2) (he : e.val = p % 8 * 128 + l.val) :
    planeKeys m c p (ix2 t' l) = proj (argX m c) (argW m c) (argB m c) 1 t' n e := by
  unfold planeKeys
  exact congrArg₂ (proj (argX m c) (argW m c) (argB m c) 1 t') (Fin.ext hn.symm) (Fin.ext he.symm)

theorem planeValues_apply (c : Dev nD) (p : ℕ) (t' : Fin 2048) (l : Fin 128) (n : Fin 2) (e : Fin 1024)
    (hn : n.val = p / 8 % 2) (he : e.val = p % 8 * 128 + l.val) :
    planeValues m c p (ix2 t' l) = proj (argX m c) (argW m c) (argB m c) 2 t' n e := by
  unfold planeValues
  exact congrArg₂ (proj (argX m c) (argW m c) (argB m c) 2 t') (Fin.ext hn.symm) (Fin.ext he.symm)

/-- Entry (r, cc) of point t's output block is the attention function at position (t % 4)·512 + r, batch member t / 32,
    embedding coordinate (t / 4 % 8)·128 + cc. -/
theorem pointBlock_apply (c : Dev nD) (t : Fin cfg0.N) (r : Fin 512) (cc : Fin 128) (s : Fin 2048) (n : Fin 2) (e : Fin 1024)
    (hs : s.val = t.val % 4 * 512 + r.val) (hn : n.val = t.val / 32) (he : e.val = t.val / 4 % 8 * 128 + cc.val) :
    outBlock (F := Ideal) (queryTile (grid0.coords t) (iblk m c 0 t)) (iblk m c 1 t) (iblk m c 4 t) (planeKeys m c (t.val / 4)) (planeValues m c (t.val / 4)) (ix2 r cc)
      = attnNormalisedLast (argX m c) (argW m c) (argB m c) s n e := by
  have hN : t.val < 64 := lt_of_lt_of_eq t.isLt nPoints
  have hcc := cc.isLt
  unfold outBlock
  refine (outPayload_apply (queryTile (grid0.coords t) (iblk m c 0 t)) (iblk m c 1 t) (iblk m c 4 t) (planeKeys m c (t.val / 4)) (planeValues m c (t.val / 4)) r cc).trans ?_
  unfold attnNormalisedLast
  refine headAttn_congr _ _ _ r cc _ _ (fun t' => ?_) (fun t' => ?_)
  · unfold score
    refine Finset.sum_congr rfl fun d _ => ?_
    have hd := d.isLt
    have hlane : (hcol e d).val = t.val / 4 % 8 * 128 + (lane cc d).val := by
      show e.val / 64 * 64 + d.val = t.val / 4 % 8 * 128 + (cc.val / 64 * 64 + d.val)
      omega
    refine congrArg₂ (· * ·) ?_ ?_
    · refine (queryPayload_apply (queryTile (grid0.coords t) (iblk m c 0 t)) (iblk m c 1 t) (iblk m c 4 t) r (lane cc d)).trans ?_
      unfold qFolded
      refine congrArg₂ (· + ·) (Finset.sum_congr rfl fun j _ => ?_) ?_
      · refine congrArg₂ (· * ·) ?_ ?_
        · exact (queryTile_apply (grid0.coords t) (iblk m c 0 t) r j s (hs.trans (congrArg (· * 512 + r.val) (tileCoord t).symm))).trans (slab_apply m c t s j n hn)
        · exact wqBlock_apply m c t j (lane cc d) (hcol e d) hlane
      · exact bqBlock_apply m c t (lane cc d) (hcol e d) hlane
    · exact planeKeys_apply m c (t.val / 4) t' (lane cc d) n (hcol e d) (by rw [hn]; omega) (by rw [hlane])
  · exact planeValues_apply m c (t.val / 4) t' cc n e (by rw [hn]; omega) (by rw [he])

/-- The [2048, 2048] array the region writes: entry (s, col) is the attention function at (s, col / 1024, col % 1024). -/
def outArray (c : Dev nD) : S2048x2048.Idx → EReal := fun i =>
  attnNormalisedLast (argX m c) (argW m c) (argB m c) (i 0) ⟨(i 1).val / 1024, by have h : (i 1).val < 2048 := (i 1).isLt; omega⟩ ⟨(i 1).val % 1024, Nat.mod_lt _ (by decide)⟩

/-- What point t writes back is block t of that array. -/
theorem flushed_out (c : Dev nD) (t : Fin cfg0.N) :
    (dats m 0 c).flushed 7 t = ((cfg0.win 7).blk t).view.read (Elt Ideal) (outArray m c) := by
  show (cfg0.win 7).cut (grid0.coords t) ((dats m 0 c).after 7 t) = _
  rw [after0_7, out_after]
  funext y
  obtain ⟨r, cc, rfl⟩ : ∃ (r : Fin 512) (cc : Fin 128), y = ix2 r cc := ⟨y 0, y 1, eq_ix2 y⟩
  have hN : t.val < 64 := lt_of_lt_of_eq t.isLt nPoints
  have hr := r.isLt
  have hcc := cc.isLt
  obtain ⟨i0, i1⟩ := outIndex t
  have e0 : ((((cfg0.win 7).blk t).view.emb (ix2 r cc)) 0).val = win0_7.index t (0 : Fin 2) * 512 + 1 * r.val := rfl
  have e1 : ((((cfg0.win 7).blk t).view.emb (ix2 r cc)) 1).val = win0_7.index t (1 : Fin 2) * 128 + 1 * cc.val := rfl
  show outBlock (F := Ideal) (queryTile (grid0.coords t) (iblk m c 0 t)) (iblk m c 1 t) (iblk m c 4 t) (planeKeys m c (t.val / 4)) (planeValues m c (t.val / 4)) (ix2 r cc)
    = outArray m c (((cfg0.win 7).blk t).view.emb (ix2 r cc))
  unfold outArray
  exact pointBlock_apply m c t r cc _ _ _ (by rw [e0, i0]; omega) (by show _ / 1024 = _; rw [e1, i1]; omega) (by show _ % 1024 = _; rw [e1, i1]; omega)

/-- The array after the region: the 64 blocks tile it. -/
theorem final_out (c : Dev nD) : (dats m 0 c).arrAt 7 cfg0.N = outArray m c :=
  (dats m 0 c).arrAt_eq_of_cover 7 (outArray m c) (fun t _ => flushed_out m c t) outBlocks_cover

/-- The program's result: the host's reshape of that array is the second arrangement of the attention function. -/
theorem result_value (c : Dev nD) :
    Pipeline.afterTail₀ cfgs (dats m) 0 (V0 m) [hostOps1] c main_v16 = resultLast (argX m c) (argW m c) (argB m c) := by
  unfold Pipeline.afterTail₀
  show StableHlo.after hostOps1 _ (Proc.devRef .tc main_v16) = _
  after_results
  funext i
  obtain ⟨s, n, e, rfl⟩ : ∃ (s : Fin 2048) (n : Fin 2) (e : Fin 1024), i = ix3 s n e := ⟨i 0, i 1, i 2, eq_ix3 i⟩
  have hn := n.isLt
  have he := e.isLt
  have hw := (Pipeline.withArrays_arr spec0 launch0.win.arr_inj c (V0 m c) (fun w => (dats m 0 c).arrAt w cfg0.N) 7).trans (final_out m c)
  show shapeCast S2048x2x1024 (Pipeline.withArrays spec0 c (V0 m c) (fun w => (dats m 0 c).arrAt w cfg0.N) (Proc.devRef .tc (Pipeline.arrRef spec0 7)))
      shapeCasts_S2048x2048_S2048x2x1024 (ix3 s n e) = _
  rw [hw]
  refine (shapeCast_apply (outArray m c) shapeCasts_S2048x2048_S2048x2x1024 (ix3 s n e) (ix2 s ⟨n.val * 1024 + e.val, by omega⟩)
    (by rewrite [Shape.rowMajor_val_two, Shape.rowMajor_val_three]
        show s.val * 2048 + (n.val * 1024 + e.val) = (s.val * 2 + n.val) * 1024 + e.val
        omega)).trans ?_
  unfold outArray resultLast
  exact congrArg₂ (attnNormalisedLast (argX m c) (argW m c) (argB m c) s)
    (Fin.ext (by show (n.val * 1024 + e.val) / 1024 = n.val; omega))
    (Fin.ext (by show (n.val * 1024 + e.val) % 1024 = e.val; omega))

/-- THE KERNEL'S RUN: every weakly fair execution terminates with the result array at the second arrangement of the attention
    function of the arguments, and the arguments unchanged. -/
theorem kernel_run :
    θ_run defs (onTc (τ := τ) (main (F := Ideal))) ⟨m, fun _ => 0, ρ⟩ (fun r => ∀ c : Dev nD,
      r.2.mem ((c.tc : Thread nD τ).loc main_v16) = resultLast (argX m c) (argW m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v16 (Pipeline.mem_restRefs_of main_v16 (by decide) (by decide))).trans (result_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end FusedAttention

end
-- ==== Proof.RefValue.lean ====
import proofs.«408540_j45543833207190_3_alg».proof.Proof.Spec
import proofs.«408540_j45543833207190_3_alg».proof.Proof.Gen.ReferenceIdeal.Read
import Idealize.ShloMosaic.PureOps.Reduce
import Idealize.ShloMosaic.PureOps.Ideal.Laws

/-!
  The reference program computes the first arrangement of the attention function.

  Each lemma reads one stage of the program at explicit coordinates.  A stage's element is named by the coordinates
  (s, n, e) of the result it feeds (query position, batch member, embedding coordinate), a key position t, and a
  coordinate d inside a head.  The head of (n, e) in the program's 32-head layout is n * 16 + e / 64: the reshape
  of [2048, 2, 1024] to [2048, 32, 64] keeps the row-major position, so (t, n, c) is the element
  (t, n * 16 + c / 64, c % 64), and the transposes only swap the first two axes.
-/

noncomputable section

namespace FusedAttention

open Idealize.ShloMosaic Idealize.ShloMosaic.ValueIdx Cert.ReferenceIdeal Cert.ReferenceIdeal.Gen Cert.ReferenceIdeal.Read
open scoped BigOperators

variable (x0 : (⟨S2048x2x1024, .f32⟩ : BufTy).Contents (Elt Ideal)) (x1 : (⟨S1024x3072, .f32⟩ : BufTy).Contents (Elt Ideal))
  (x2 : (⟨S3072, .f32⟩ : BufTy).Contents (Elt Ideal))

/-- The fused projection plus bias, at column sec * 1024 + e of position t and batch member n, is the
    affine projection of section sec. -/
theorem v3_at (i : S2048x2x3072.Idx) (sec : Fin 3) (t : Fin 2048) (n : Fin 2) (e : Fin 1024)
    (h0 : (i 0).val = t.val) (h1 : (i 1).val = n.val) (h2 : (i 2).val = sec.val * 1024 + e.val) :
    val_main_v3 (F := Ideal) x0 x1 x2 i = proj x0 x1 x2 sec t n e := by
  rw [val_main_v3_apply, val_main_v0_apply, val_main_v2_apply, val_main_v1_apply]
  unfold proj
  have eb : idx_main_v1 (idx_main_v2 i) = ix1 (wcol sec e) := funext fun a => Fin.ext (by
    match a with
    | ⟨0, _⟩ => exact h2)
  have el : ∀ k : Fin 1024, lidx_main_v0 i k = ix3 t n k := fun k => funext fun a => Fin.ext (by
    match a with
    | ⟨0, _⟩ => exact h0
    | ⟨1, _⟩ => exact h1
    | ⟨2, _⟩ => rfl)
  have er : ∀ k : Fin 1024, ridx_main_v0 i k = ix2 k (wcol sec e) := fun k => funext fun a => Fin.ext (by
    match a with
    | ⟨0, _⟩ => rfl
    | ⟨1, _⟩ => exact h2)
  rw [eb, Ideal.addf_def]
  exact congrArg (· + x2 (ix1 (wcol sec e))) (Finset.sum_congr rfl fun k _ => by rw [el k, er k])

/-- The scaled queries in the head layout: element (n * 16 + c / 64, s, c % 64) is the scaled query at (s, n, c). -/
theorem v10_at (j : S32x2048x64.Idx) (s : Fin 2048) (n : Fin 2) (c : Fin 1024)
    (h0 : (j 0).val = n.val * 16 + c.val / 64) (h1 : (j 1).val = s.val) (h2 : (j 2).val = c.val % 64) :
    val_main_v10 (F := Ideal) x0 x1 x2 j = qScaled x0 x1 x2 s n c := by
  rw [val_main_v10_apply, val_main_v9_apply, val_main_v8_apply, val_main_v4_apply, val_main_v7_apply, val_main_cst_apply]
  have hs := s.isLt; have hn := n.isLt; have hc := c.isLt
  have key := v3_at x0 x1 x2 (idx_main_v4 (idx_main_v9 (idx_main_v10 j))) 0 s n c
    (by show (((j 1).val * 32 + (j 0).val) * 64 + (j 2).val) / 2048 = s.val; omega)
    (by show (((j 1).val * 32 + (j 0).val) * 64 + (j 2).val) / 1024 % 2 = n.val; omega)
    (by show (((j 1).val * 32 + (j 0).val) * 64 + (j 2).val) % 1024 = 0 * 1024 + c.val; omega)
  rw [key]
  rfl

/-- The keys in the head layout. -/
theorem v12_at (j : S32x2048x64.Idx) (t : Fin 2048) (n : Fin 2) (c : Fin 1024)
    (h0 : (j 0).val = n.val * 16 + c.val / 64) (h1 : (j 1).val = t.val) (h2 : (j 2).val = c.val % 64) :
    val_main_v12 (F := Ideal) x0 x1 x2 j = proj x0 x1 x2 1 t n c := by
  rw [val_main_v12_apply, val_main_v11_apply, val_main_v5_apply]
  have ht := t.isLt; have hn := n.isLt; have hc := c.isLt
  exact v3_at x0 x1 x2 (idx_main_v5 (idx_main_v11 (idx_main_v12 j))) 1 t n c
    (by show (((j 1).val * 32 + (j 0).val) * 64 + (j 2).val) / 2048 = t.val; omega)
    (by show (((j 1).val * 32 + (j 0).val) * 64 + (j 2).val) / 1024 % 2 = n.val; omega)
    (by show 1024 + (((j 1).val * 32 + (j 0).val) * 64 + (j 2).val) % 1024 = 1 * 1024 + c.val; omega)

/-- The values in the head layout. -/
theorem v14_at (j : S32x2048x64.Idx) (t : Fin 2048) (n : Fin 2) (c : Fin 1024)
    (h0 : (j 0).val = n.val * 16 + c.val / 64) (h1 : (j 1).val = t.val) (h2 : (j 2).val = c.val % 64) :
    val_main_v14 (F := Ideal) x0 x1 x2 j = proj x0 x1 x2 2 t n c := by
  rw [val_main_v14_apply, val_main_v13_apply, val_main_v6_apply]
  have ht := t.isLt; have hn := n.isLt; have hc := c.isLt
  exact v3_at x0 x1 x2 (idx_main_v6 (idx_main_v13 (idx_main_v14 j))) 2 t n c
    (by show (((j 1).val * 32 + (j 0).val) * 64 + (j 2).val) / 2048 = t.val; omega)
    (by show (((j 1).val * 32 + (j 0).val) * 64 + (j 2).val) / 1024 % 2 = n.val; omega)
    (by show 2048 + (((j 1).val * 32 + (j 0).val) * 64 + (j 2).val) % 1024 = 2 * 1024 + c.val; omega)

/-- The score array: element (n * 16 + e / 64, s, t) is the score of s against t in the head of (n, e). -/
theorem v15_at (j : S32x2048x2048.Idx) (s t : Fin 2048) (n : Fin 2) (e : Fin 1024)
    (h0 : (j 0).val = n.val * 16 + e.val / 64) (h1 : (j 1).val = s.val) (h2 : (j 2).val = t.val) :
    val_main_v15 (F := Ideal) x0 x1 x2 j = score (qScaled x0 x1 x2) (proj x0 x1 x2 1) s n e t := by
  rw [val_main_v15_apply]
  unfold score
  refine Finset.sum_congr rfl fun d _ => ?_
  have hd := d.isLt; have he := e.isLt
  have hq : (hcol e d).val / 64 = e.val / 64 := by show (e.val / 64 * 64 + d.val) / 64 = e.val / 64; omega
  have hr : (hcol e d).val % 64 = d.val := by show (e.val / 64 * 64 + d.val) % 64 = d.val; omega
  have kq := v10_at x0 x1 x2 (lidx_main_v15 j d) s n (hcol e d)
    (by show (j 0).val = _; rw [hq]; exact h0) (by show (j 1).val = _; exact h1) (by show d.val = _; exact hr.symm)
  have kk := v12_at x0 x1 x2 (ridx_main_v15 j d) t n (hcol e d)
    (by show (j 0).val = _; rw [hq]; exact h0) (by show (j 2).val = _; exact h2) (by show d.val = _; exact hr.symm)
  rw [kq, kk]

/-- Axis 2 of the score array is the one the row reductions drop. -/
theorem reduces_d2 : S32x2048x2048.Reduces [2] S32x2048 := by decide

/-- The row's greatest score, folded from minus infinity over the key positions. -/
theorem v16_at (j : S32x2048.Idx) (s : Fin 2048) (n : Fin 2) (e : Fin 1024)
    (h0 : (j 0).val = n.val * 16 + e.val / 64) (h1 : (j 1).val = s.val) :
    val_main_v16 (F := Ideal) x0 x1 x2 j = rowMax (score (qScaled x0 x1 x2) (proj x0 x1 x2 1) s n e) := by
  unfold val_main_v16
  rw [Host.reduce_eq_fold_single FloatOps.maximumf _ _ reducesTo_S32x2048x2048_S32x2048_d2 reduces_d2 h_S_]
  have hf : (val_main_v15 (F := Ideal) x0 x1 x2 ∘ reduces_d2.lift j) = score (qScaled x0 x1 x2) (proj x0 x1 x2 1) s n e :=
    funext fun t => v15_at x0 x1 x2 (reduces_d2.lift j t) s t n e
      (by show (j 0).val = _; exact h0) (by show (j 1).val = _; exact h1) rfl
  exact congrArg (fun f => Finset.fold max negInf f (Finset.univ : Finset (Fin 2048))) hf

/-- The maximum taken once more against minus infinity. -/
theorem v18_at (j : S32x2048.Idx) (s : Fin 2048) (n : Fin 2) (e : Fin 1024)
    (h0 : (j 0).val = n.val * 16 + e.val / 64) (h1 : (j 1).val = s.val) :
    val_main_v18 (F := Ideal) x0 x1 x2 j = max negInf (rowMax (score (qScaled x0 x1 x2) (proj x0 x1 x2 1) s n e)) := by
  rw [val_main_v18_apply, val_main_v17_apply, val_main_cst_1_apply, v16_at x0 x1 x2 j s n e h0 h1]
  rfl

/-- The unnormalised weight of key position t. -/
theorem v22_at (j : S32x2048x2048.Idx) (s t : Fin 2048) (n : Fin 2) (e : Fin 1024)
    (h0 : (j 0).val = n.val * 16 + e.val / 64) (h1 : (j 1).val = s.val) (h2 : (j 2).val = t.val) :
    val_main_v22 (F := Ideal) x0 x1 x2 j
      = Ideal.exp (score (qScaled x0 x1 x2) (proj x0 x1 x2 1) s n e t
          - max negInf (rowMax (score (qScaled x0 x1 x2) (proj x0 x1 x2 1) s n e))) := by
  have km := v18_at x0 x1 x2 (idx_main_v19 (idx_main_v20 j)) s n e
    (by show (j 0).val = _; exact h0) (by show (j 1).val = _; exact h1)
  rw [val_main_v22_apply, val_main_v21_apply, val_main_v20_apply, val_main_v19_apply,
    v15_at x0 x1 x2 j s t n e h0 h1 h2, km]
  rfl

/-- The row's sum of weights, started from the zero word. -/
theorem v23_at (j : S32x2048.Idx) (s : Fin 2048) (n : Fin 2) (e : Fin 1024)
    (h0 : (j 0).val = n.val * 16 + e.val / 64) (h1 : (j 1).val = s.val) :
    val_main_v23 (F := Ideal) x0 x1 x2 j
      = zeroW + ∑ t' : Fin 2048, Ideal.exp (score (qScaled x0 x1 x2) (proj x0 x1 x2 1) s n e t'
          - max negInf (rowMax (score (qScaled x0 x1 x2) (proj x0 x1 x2 1) s n e))) := by
  rw [val_main_v23_apply, val_main_cst_2_apply]
  refine congrArg (zeroW + ·) (Finset.sum_congr rfl fun t' _ => ?_)
  exact v22_at x0 x1 x2 (idx_main_v23 j t') s t' n e
    (by show (j 0).val = _; exact h0) (by show (j 1).val = _; exact h1) rfl

/-- The normalised weight of key position t. -/
theorem v26_at (j : S32x2048x2048.Idx) (s t : Fin 2048) (n : Fin 2) (e : Fin 1024)
    (h0 : (j 0).val = n.val * 16 + e.val / 64) (h1 : (j 1).val = s.val) (h2 : (j 2).val = t.val) :
    val_main_v26 (F := Ideal) x0 x1 x2 j
      = Ideal.div (Ideal.exp (score (qScaled x0 x1 x2) (proj x0 x1 x2 1) s n e t
            - max negInf (rowMax (score (qScaled x0 x1 x2) (proj x0 x1 x2 1) s n e))))
          (zeroW + ∑ t' : Fin 2048, Ideal.exp (score (qScaled x0 x1 x2) (proj x0 x1 x2 1) s n e t'
            - max negInf (rowMax (score (qScaled x0 x1 x2) (proj x0 x1 x2 1) s n e)))) := by
  have ks := v23_at x0 x1 x2 (idx_main_v24 (idx_main_v25 j)) s n e
    (by show (j 0).val = _; exact h0) (by show (j 1).val = _; exact h1)
  rw [val_main_v26_apply, val_main_v25_apply, val_main_v24_apply, v22_at x0 x1 x2 j s t n e h0 h1 h2, ks]
  rfl

/-- The weighted sum of values, in the head layout: element (n * 16 + e / 64, s, e % 64). -/
theorem v27_at (j : S32x2048x64.Idx) (s : Fin 2048) (n : Fin 2) (e : Fin 1024)
    (h0 : (j 0).val = n.val * 16 + e.val / 64) (h1 : (j 1).val = s.val) (h2 : (j 2).val = e.val % 64) :
    val_main_v27 (F := Ideal) x0 x1 x2 j = attnNormalisedFirst x0 x1 x2 s n e := by
  rw [val_main_v27_apply]
  unfold attnNormalisedFirst
  refine Finset.sum_congr rfl fun t _ => ?_
  have kw := v26_at x0 x1 x2 (lidx_main_v27 j t) s t n e
    (by show (j 0).val = _; exact h0) (by show (j 1).val = _; exact h1) rfl
  have kv := v14_at x0 x1 x2 (ridx_main_v27 j t) t n e
    (by show (j 0).val = _; exact h0) rfl (by show (j 2).val = _; exact h2)
  rw [kw, kv]

/-- The reference program's result is the first arrangement of the attention function. -/
theorem reference_value (x0 : (⟨S2048x2x1024, .f32⟩ : BufTy).Contents (Elt Ideal)) (x1 : (⟨S1024x3072, .f32⟩ : BufTy).Contents (Elt Ideal))
    (x2 : (⟨S3072, .f32⟩ : BufTy).Contents (Elt Ideal)) :
    Cert.ReferenceIdeal.Read.val_main_v29 (F := Ideal) x0 x1 x2 = resultFirst x0 x1 x2 := by
  funext i
  obtain ⟨s, n, e, rfl⟩ : ∃ (s : Fin 2048) (n : Fin 2) (e : Fin 1024), i = ValueIdx.ix3 s n e :=
    ⟨i 0, i 1, i 2, ValueIdx.eq_ix3 i⟩
  rw [val_main_v29_apply, val_main_v28_apply]
  have hs := s.isLt; have hn := n.isLt; have he := e.isLt
  exact v27_at x0 x1 x2 (idx_main_v28 (idx_main_v29 (ValueIdx.ix3 s n e))) s n e
    (by show ((s.val * 2 + n.val) * 1024 + e.val) / 64 % 32 = n.val * 16 + e.val / 64; omega)
    (by show ((s.val * 2 + n.val) * 1024 + e.val) / 2048 = s.val; omega)
    (by show ((s.val * 2 + n.val) * 1024 + e.val) % 64 = e.val % 64; omega)

end FusedAttention

end
-- ==== Proof.LibIdealReal.lean ====
/-
  Finiteness of the extended reals a graph convolution computes.

  At the ideal float values every float is an extended real.  `IsReal x` says `x` is
  the image of a real number; the lemmas below show that the operations the network uses
  (sum, product, difference, maximum, division by a positive real, the reciprocal square
  root of a positive real, the exponential, `exp - 1`, a selection between two reals, a
  change of format) carry reals to reals, so that distributivity, which fails at the
  infinities, is available along the whole computation.
-/
import Idealize.ShloMosaic.PureOps.Ideal
import Idealize.ShloMosaic.PureOps.Ideal.Laws

namespace IdealReal

open Idealize.ShloMosaic
open scoped BigOperators

/-- An extended real that is a real number. -/
def IsReal (x : EReal) : Prop := ∃ r : ℝ, x = r

/-- The coercion `ℝ → EReal` commutes with finite sums. -/
theorem coe_finset_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

theorem isReal_coe (r : ℝ) : IsReal (r : EReal) := ⟨r, rfl⟩

theorem isReal_iff {x : EReal} : IsReal x ↔ x ≠ ⊥ ∧ x ≠ ⊤ := by
  constructor
  · rintro ⟨r, rfl⟩
    exact ⟨EReal.coe_ne_bot r, EReal.coe_ne_top r⟩
  · rintro ⟨hb, ht⟩
    exact ⟨x.toReal, (EReal.coe_toReal ht hb).symm⟩

theorem IsReal.ne_bot {x : EReal} (h : IsReal x) : x ≠ ⊥ := (isReal_iff.mp h).1
theorem IsReal.ne_top {x : EReal} (h : IsReal x) : x ≠ ⊤ := (isReal_iff.mp h).2

/-- A real is its own `toReal`. -/
theorem IsReal.coe_toReal {x : EReal} (h : IsReal x) : ((x.toReal : ℝ) : EReal) = x := by
  obtain ⟨r, rfl⟩ := h
  rw [EReal.toReal_coe]

theorem isReal_zero : IsReal 0 := ⟨0, rfl⟩
theorem isReal_one : IsReal 1 := ⟨1, rfl⟩

/-! ## The arithmetic of `EReal` -/

theorem IsReal.add {x y : EReal} (hx : IsReal x) (hy : IsReal y) : IsReal (x + y) := by
  obtain ⟨a, rfl⟩ := hx
  obtain ⟨b, rfl⟩ := hy
  exact ⟨a + b, (EReal.coe_add a b).symm⟩
theorem IsReal.mul {x y : EReal} (hx : IsReal x) (hy : IsReal y) : IsReal (x * y) := by
  obtain ⟨a, rfl⟩ := hx
  obtain ⟨b, rfl⟩ := hy
  exact ⟨a * b, (EReal.coe_mul a b).symm⟩
theorem IsReal.neg {x : EReal} (hx : IsReal x) : IsReal (-x) := by
  obtain ⟨a, rfl⟩ := hx
  exact ⟨-a, (EReal.coe_neg a).symm⟩
theorem IsReal.sub {x y : EReal} (hx : IsReal x) (hy : IsReal y) : IsReal (x - y) := by
  obtain ⟨a, rfl⟩ := hx
  obtain ⟨b, rfl⟩ := hy
  exact ⟨a - b, (EReal.coe_sub a b).symm⟩
theorem IsReal.max {x y : EReal} (hx : IsReal x) (hy : IsReal y) : IsReal (max x y) := by
  rcases max_choice x y with h | h <;> rw [h] <;> assumption
theorem IsReal.min {x y : EReal} (hx : IsReal x) (hy : IsReal y) : IsReal (min x y) := by
  rcases min_choice x y with h | h <;> rw [h] <;> assumption
theorem IsReal.ite {x y : EReal} (p : Prop) [Decidable p] (hx : IsReal x) (hy : IsReal y) :
    IsReal (if p then x else y) := by
  split_ifs <;> assumption

/-- A finite sum of reals is a real. -/
theorem IsReal.sum {ι : Type*} (s : Finset ι) (f : ι → EReal) (hf : ∀ i ∈ s, IsReal (f i)) :
    IsReal (∑ i ∈ s, f i) := by
  refine ⟨∑ i ∈ s, (f i).toReal, ?_⟩
  rw [coe_finset_sum]
  exact Finset.sum_congr rfl fun i hi => ((hf i hi).coe_toReal).symm

/-- A finite sum of products of reals is a real. -/
theorem IsReal.sum_mul {ι : Type*} (s : Finset ι) (f g : ι → EReal) (hf : ∀ i ∈ s, IsReal (f i))
    (hg : ∀ i ∈ s, IsReal (g i)) : IsReal (∑ i ∈ s, f i * g i) := by
  exact IsReal.sum s _ fun i hi => (hf i hi).mul (hg i hi)

/-- A count, a finite sum of ones, is the cardinality as a real. -/
theorem sum_one_eq_card {ι : Type*} (s : Finset ι) : (∑ _i ∈ s, (1 : EReal)) = ((s.card : ℝ) : EReal) := by
  have h := coe_finset_sum s (fun _ => (1 : ℝ))
  rw [Finset.sum_const, nsmul_eq_mul, mul_one] at h
  rw [h]
  exact Finset.sum_congr rfl fun _ _ => EReal.coe_one.symm

/-- An initial real plus a count is a real at least the initial value. -/
theorem add_sum_one_eq {ι : Type*} (s : Finset ι) (c : ℝ) :
    (c : EReal) + ∑ _i ∈ s, (1 : EReal) = ((c + s.card : ℝ) : EReal) := by
  rw [sum_one_eq_card, ← EReal.coe_add]

/-! ## The fields of the ideal instance, at a scalar -/

section Fields
variable {φ : FTy} {x y : Ideal φ}

theorem IsReal.addf (hx : IsReal x) (hy : IsReal y) : IsReal (FloatOps.addf x y) := hx.add hy
theorem IsReal.subf (hx : IsReal x) (hy : IsReal y) : IsReal (FloatOps.subf x y) := hx.sub hy
theorem IsReal.mulf (hx : IsReal x) (hy : IsReal y) : IsReal (FloatOps.mulf x y) := hx.mul hy
theorem IsReal.maximumf (hx : IsReal x) (hy : IsReal y) : IsReal (FloatOps.maximumf x y) := hx.max hy
theorem IsReal.minimumf (hx : IsReal x) (hy : IsReal y) : IsReal (FloatOps.minimumf x y) := hx.min hy
theorem IsReal.negf (hx : IsReal x) : IsReal (FloatOps.negf x) := hx.neg
theorem IsReal.extf (ψ : FTy) (h : φ.bits < ψ.bits) (hx : IsReal x) :
    IsReal (FloatOps.extf (F := Ideal) ψ h x) := hx
theorem IsReal.truncf (ψ : FTy) (h : ψ.bits < φ.bits) (hx : IsReal x) :
    IsReal (FloatOps.truncf (F := Ideal) ψ h x) := hx

end Fields

/-! ## Division by a real that is not zero -/

/-- The quotient of two reals, the divisor not zero, is the real quotient. -/
theorem div_coe_coe (a : ℝ) {b : ℝ} (hb : b ≠ 0) : Ideal.div (a : EReal) (b : EReal) = ((a / b : ℝ) : EReal) := by
  rw [Ideal.div, if_neg (by exact_mod_cast hb), ← EReal.coe_inv, ← EReal.coe_mul, div_eq_mul_inv]

theorem IsReal.div_of_ne_zero {x y : EReal} (hx : IsReal x) (hy : ∃ r : ℝ, r ≠ 0 ∧ y = r) :
    IsReal (Ideal.div x y) := by
  obtain ⟨a, rfl⟩ := hx
  obtain ⟨b, hb, rfl⟩ := hy
  exact ⟨a / b, div_coe_coe a hb⟩

theorem IsReal.div_of_pos {x y : EReal} (hx : IsReal x) (hy : ∃ r : ℝ, 0 < r ∧ y = r) :
    IsReal (Ideal.div x y) := by
  obtain ⟨b, hb, rfl⟩ := hy
  exact hx.div_of_ne_zero ⟨b, hb.ne', rfl⟩

theorem IsReal.hostDivf {φ : FTy} {x y : Ideal φ} (hx : IsReal x) (hy : ∃ r : ℝ, 0 < r ∧ y = r) :
    IsReal (FloatOps.hostDivf x y) := hx.div_of_pos hy

theorem IsReal.divf {φ : FTy} {x y : Ideal φ} (hx : IsReal x) (hy : ∃ r : ℝ, 0 < r ∧ y = r) :
    IsReal (FloatOps.divf x y) := hx.div_of_pos hy

/-! ## The reciprocal square root of a positive real -/

/-- At a positive real the reciprocal square root is the real `(√r)⁻¹`. -/
theorem rsqrt_coe_of_pos {r : ℝ} (hr : 0 < r) : Ideal.rsqrt (r : EReal) = (((Real.sqrt r)⁻¹ : ℝ) : EReal) := by
  rw [Ideal.rsqrt_coe, if_neg (not_lt.mpr hr.le), if_neg hr.ne']

/-- `(√r)⁻¹` is positive for positive `r`. -/
theorem inv_sqrt_pos {r : ℝ} (hr : 0 < r) : 0 < (Real.sqrt r)⁻¹ := by
  exact inv_pos.mpr (Real.sqrt_pos.mpr hr)

theorem isReal_rsqrt_of_pos {x : EReal} (hx : ∃ r : ℝ, 0 < r ∧ x = r) : IsReal (Ideal.rsqrt x) := by
  obtain ⟨r, hr, rfl⟩ := hx
  exact ⟨_, rsqrt_coe_of_pos hr⟩

/-- The reciprocal square root of a real at least one is a positive real. -/
theorem rsqrt_pos_real_of_one_le {x : EReal} (hx : ∃ r : ℝ, 1 ≤ r ∧ x = r) :
    ∃ q : ℝ, 0 < q ∧ Ideal.rsqrt x = q := by
  obtain ⟨r, hr, rfl⟩ := hx
  have h0 : 0 < r := lt_of_lt_of_le one_pos hr
  exact ⟨_, inv_sqrt_pos h0, rsqrt_coe_of_pos h0⟩

theorem isReal_hostRsqrt_of_pos {φ : FTy} {x : Ideal φ} (hx : ∃ r : ℝ, 0 < r ∧ x = r) :
    IsReal (FloatOps.hostUnary .rsqrt x) := isReal_rsqrt_of_pos hx

theorem isReal_rsqrtf_of_pos {φ : FTy} {x : Ideal φ} (hx : ∃ r : ℝ, 0 < r ∧ x = r) :
    IsReal (FloatOps.rsqrt x) := isReal_rsqrt_of_pos hx

/-! ## The exponential and `exp - 1` -/

theorem IsReal.exp {x : EReal} (hx : IsReal x) : IsReal (Ideal.exp x) := by
  obtain ⟨r, rfl⟩ := hx
  exact ⟨Real.exp r, rfl⟩

/-- The exponential of a real is a positive real. -/
theorem exp_pos_real {x : EReal} (hx : IsReal x) : ∃ q : ℝ, 0 < q ∧ Ideal.exp x = q := by
  obtain ⟨r, rfl⟩ := hx
  exact ⟨Real.exp r, Real.exp_pos r, rfl⟩

theorem IsReal.expm1 {x : EReal} (hx : IsReal x) : IsReal (Ideal.expm1 x) := by
  exact hx.exp.sub isReal_one

theorem IsReal.hostExp {φ : FTy} {x : Ideal φ} (hx : IsReal x) : IsReal (FloatOps.hostUnary .exp x) := hx.exp
theorem IsReal.expf {φ : FTy} {x : Ideal φ} (hx : IsReal x) : IsReal (FloatOps.exp x) := hx.exp
theorem IsReal.hostExpm1 {φ : FTy} {x : Ideal φ} (hx : IsReal x) : IsReal (FloatOps.hostUnary .expm1 x) := hx.expm1

/-! ## Selection -/

theorem IsReal.select {x y : EReal} (c : BitVec 1) (hx : IsReal x) (hy : IsReal y) :
    IsReal (Scalar.select c x y) := by
  unfold Scalar.select
  split_ifs <;> assumption

/-- A selection on a comparison of floats. -/
theorem IsReal.select_cmpf {φ : FTy} (p : CmpFPredicate) (a b : Ideal φ) {x y : EReal} (hx : IsReal x) (hy : IsReal y) :
    IsReal (Scalar.select (FloatOps.cmpf p a b) x y) := hx.select _ hy

/-! ## Literals -/

theorem ofBits_f32_zero : Ideal.ofBits .f32 0x00000000#32 = 0 := Ideal.ofBits_zero_f32

theorem ofBits_f32_one : Ideal.ofBits .f32 0x3F800000#32 = 1 := by
  simp [Ideal.ofBits, Ideal.ieee]
  rw [← EReal.coe_mul]
  norm_num

theorem ofBits_bf16_zero : Ideal.ofBits .bf16 0x0000#16 = 0 := by
  simp [Ideal.ofBits, Ideal.ieee]

theorem isReal_ofBits_f32_zero : IsReal (Ideal.ofBits .f32 0x00000000#32) := ofBits_f32_zero ▸ isReal_zero
theorem isReal_ofBits_f32_one : IsReal (Ideal.ofBits .f32 0x3F800000#32) := ofBits_f32_one ▸ isReal_one
theorem isReal_ofBits_bf16_zero : IsReal (Ideal.ofBits .bf16 0x0000#16) := ofBits_bf16_zero ▸ isReal_zero

end IdealReal
-- ==== Proof.LibIdealPos.lean ====
/-
  Positive reals among the extended reals.

  `IsPos x` says the extended real `x` is a positive real number.  Sums, products and
  quotients of positive reals are positive reals; the exponential of a real is one; so is the
  reciprocal square root of a real at least one; and the maximum of a real with one is a real
  at least one.  These carry a degree count through `max · 1` and the reciprocal square root
  to a positive edge weight, and a softmax's denominator to a positive real.
-/
import proofs.«408540_j45543833207190_3_alg».proof.Proof.LibIdealReal

namespace IdealReal

open Idealize.ShloMosaic
open scoped BigOperators

/-- An extended real that is a positive real number. -/
def IsPos (x : EReal) : Prop := ∃ q : ℝ, 0 < q ∧ x = q

theorem IsPos.isReal {x : EReal} (h : IsPos x) : IsReal x := by
  obtain ⟨q, _, rfl⟩ := h
  exact ⟨q, rfl⟩

theorem isPos_coe {q : ℝ} (hq : 0 < q) : IsPos (q : EReal) := ⟨q, hq, rfl⟩

theorem isPos_one : IsPos 1 := ⟨1, one_pos, rfl⟩

theorem IsPos.pos {x : EReal} (h : IsPos x) : 0 < x := by
  obtain ⟨q, hq, rfl⟩ := h
  exact EReal.coe_pos.mpr hq

theorem IsPos.ne_zero {x : EReal} (h : IsPos x) : x ≠ 0 := h.pos.ne'

theorem IsPos.add {x y : EReal} (hx : IsPos x) (hy : IsPos y) : IsPos (x + y) := by
  obtain ⟨a, ha, rfl⟩ := hx
  obtain ⟨b, hb, rfl⟩ := hy
  exact ⟨a + b, add_pos ha hb, (EReal.coe_add a b).symm⟩

theorem IsPos.mul {x y : EReal} (hx : IsPos x) (hy : IsPos y) : IsPos (x * y) := by
  obtain ⟨a, ha, rfl⟩ := hx
  obtain ⟨b, hb, rfl⟩ := hy
  exact ⟨a * b, mul_pos ha hb, (EReal.coe_mul a b).symm⟩

/-- Zero plus a positive real, the shape of a sum started from a zero accumulator. -/
theorem IsPos.zero_add {x : EReal} (hx : IsPos x) : IsPos (0 + x) := by
  rw [_root_.zero_add]; exact hx

/-- A sum of positive reals over a set that is not empty is a positive real. -/
theorem IsPos.sum {ι : Type*} (s : Finset ι) (hs : s.Nonempty) (f : ι → EReal)
    (hf : ∀ i ∈ s, IsPos (f i)) : IsPos (∑ i ∈ s, f i) := by
  refine ⟨∑ i ∈ s, (f i).toReal, ?_, ?_⟩
  · refine Finset.sum_pos (fun i hi => ?_) hs
    obtain ⟨q, hq, hqe⟩ := hf i hi
    rw [hqe, EReal.toReal_coe]; exact hq
  · rw [coe_finset_sum]
    exact Finset.sum_congr rfl fun i hi => ((hf i hi).isReal.coe_toReal).symm

/-- The quotient of two positive reals is a positive real. -/
theorem IsPos.div {x y : EReal} (hx : IsPos x) (hy : IsPos y) : IsPos (Ideal.div x y) := by
  obtain ⟨a, ha, rfl⟩ := hx
  obtain ⟨b, hb, rfl⟩ := hy
  exact ⟨a / b, div_pos ha hb, div_coe_coe a hb.ne'⟩

/-- The quotient of a real by a positive real is a real. -/
theorem IsReal.div_isPos {x y : EReal} (hx : IsReal x) (hy : IsPos y) : IsReal (Ideal.div x y) :=
  hx.div_of_pos hy

/-- The exponential of a real is a positive real. -/
theorem IsReal.isPos_exp {x : EReal} (hx : IsReal x) : IsPos (Ideal.exp x) := exp_pos_real hx

/-- The maximum of a real with one is a real at least one. -/
theorem one_le_max_one_of_isReal {x : EReal} (hx : IsReal x) : ∃ r : ℝ, 1 ≤ r ∧ max x 1 = r := by
  obtain ⟨a, rfl⟩ := hx
  refine ⟨max a 1, le_max_right a 1, ?_⟩
  rcases le_total a 1 with h | h
  · rw [max_eq_right h, max_eq_right (by exact_mod_cast h)]; rfl
  · rw [max_eq_left h, max_eq_left (by exact_mod_cast h)]

/-- The same with the one on the left. -/
theorem one_le_one_max_of_isReal {x : EReal} (hx : IsReal x) : ∃ r : ℝ, 1 ≤ r ∧ max 1 x = r := by
  rw [max_comm]; exact one_le_max_one_of_isReal hx

/-- The reciprocal square root of a real at least one is a positive real. -/
theorem isPos_rsqrt_of_one_le {x : EReal} (hx : ∃ r : ℝ, 1 ≤ r ∧ x = r) : IsPos (Ideal.rsqrt x) :=
  rsqrt_pos_real_of_one_le hx

/-- The reciprocal square root of the maximum of a real with one is a positive real: a degree
    count clamped below by one, then inverted. -/
theorem isPos_rsqrt_max_one {x : EReal} (hx : IsReal x) : IsPos (Ideal.rsqrt (max x 1)) :=
  isPos_rsqrt_of_one_le (one_le_max_one_of_isReal hx)

/-- The maximum against the bottom element is the other operand: a maximum folded from `-∞`. -/
theorem isReal_max_bot_left {x : EReal} (hx : IsReal x) : IsReal (max ⊥ x) := by
  rw [max_eq_right bot_le]; exact hx

end IdealReal
-- ==== Proof.Algebra.lean ====
/-
  The two arrangements of the attention computation agree over real inputs.

  Three algebraic facts, each proved over an abstract finite index set and then instantiated:
  (i) scaling an affine form by a real constant is the affine form of the scaled coefficients
  (distributivity, which holds among the reals but fails at the infinities of the extended reals);
  (ii) the maximum of finitely many reals over a nonempty index set, folded from minus infinity, is a real,
  so that every softmax weight is the exponential of a real, a positive real, and the row's sum of weights
  is a positive real; (iii) dividing every weight by the row's sum before the weighted sum of values equals
  dividing the weighted sum once (a sum of quotients by a common nonzero real divisor).
-/
import proofs.«408540_j45543833207190_3_alg».proof.Proof.Spec
import proofs.«408540_j45543833207190_3_alg».proof.Proof.LibIdealReal
import proofs.«408540_j45543833207190_3_alg».proof.Proof.LibIdealPos

namespace FusedAttention

open Idealize.ShloMosaic Idealize.ShloMosaic.ValueIdx IdealReal
open scoped BigOperators

/-! ## The three literal words -/

/-- The scale word is the real 1/8: exponent field 124 and zero fraction, so 2^23 · 2^(124 - 127 - 23) = 2^(-3). -/
theorem scale_eq : scale = ((1 / 8 : ℝ) : EReal) := by
  simp [Ideal.ofBits, Ideal.ieee]
  rw [← EReal.coe_mul]
  norm_num

/-- The word with the sign set, the exponent field all ones and zero fraction is minus infinity. -/
theorem negInf_eq : negInf = ⊥ := by
  simp [Ideal.ofBits, Ideal.ieee]

/-- The all-zero word is zero. -/
theorem zeroW_eq : zeroW = 0 := Ideal.ofBits_zero_f32

theorem isReal_scale : IsReal scale := scale_eq ▸ isReal_coe _

/-! ## (i) Scaling an affine form -/

/-- Over the reals ((Σ f g) + β) · c = (Σ f (g c)) + β c: the product distributes over the finite sum and
    the added constant.  Among the extended reals this needs every term finite. -/
theorem affine_mul_real {ι : Type} (s : Finset ι) (f g : ι → EReal) (β c : EReal)
    (hf : ∀ j, IsReal (f j)) (hg : ∀ j, IsReal (g j)) (hβ : IsReal β) (hc : IsReal c) :
    ((∑ j ∈ s, f j * g j) + β) * c = (∑ j ∈ s, f j * (g j * c)) + β * c := by
  choose F hF using hf
  choose G hG using hg
  obtain ⟨b, rfl⟩ := hβ
  obtain ⟨c, rfl⟩ := hc
  have key : ((∑ j ∈ s, F j * G j) + b) * c = (∑ j ∈ s, F j * (G j * c)) + b * c := by
    rw [add_mul, Finset.sum_mul]
    congr 1
    exact Finset.sum_congr rfl fun j _ => by ring
  have h := congrArg (fun r : ℝ => (r : EReal)) key
  simp only [EReal.coe_add, EReal.coe_mul, coe_finset_sum] at h
  simp only [hF, hG]
  exact h

/-! ## (ii) A maximum folded from minus infinity -/

/-- The maximum of the reals f t, t in a nonempty finite set, folded from ⊥, is a real: the fold over one
    more element is the maximum of a real with either ⊥ (nothing folded yet) or a real. -/
theorem isReal_fold_max_bot {ι : Type} (s : Finset ι) (hs : s.Nonempty) (f : ι → EReal)
    (hf : ∀ t, IsReal (f t)) : IsReal (s.fold max ⊥ f) := by
  classical
  induction s using Finset.induction_on with
  | empty => exact absurd hs Finset.not_nonempty_empty
  | insert a s ha ih =>
    rw [Finset.fold_insert ha]
    rcases s.eq_empty_or_nonempty with h | h
    · subst h
      rw [Finset.fold_empty, max_eq_left bot_le]
      exact hf a
    · exact (hf a).max (ih h)

/-! ## (iii) Normalising before or after the weighted sum -/

/-- With real weights p t, real values v t and a positive real L,
    Σ (p t / L) · v t = (Σ p t · v t) / L: both sides are the same real, by distributing the
    reciprocal of L over the finite sum. -/
theorem sum_div_mul_eq {ι : Type} (s : Finset ι) (p v : ι → EReal) (L : EReal)
    (hp : ∀ t, IsReal (p t)) (hv : ∀ t, IsReal (v t)) (hL : IsPos L) :
    ∑ t ∈ s, Ideal.div (p t) L * v t = Ideal.div (∑ t ∈ s, p t * v t) L := by
  choose P hP using hp
  choose V hV using hv
  obtain ⟨l, hl, rfl⟩ := hL
  have key : ∑ t ∈ s, P t / l * V t = (∑ t ∈ s, P t * V t) / l := by
    rw [div_eq_mul_inv, Finset.sum_mul]
    exact Finset.sum_congr rfl fun t _ => by ring
  simp only [hP, hV, div_coe_coe _ hl.ne', ← EReal.coe_mul, ← coe_finset_sum]
  rw [key]

/-- The softmax-weighted average, two ways.  The weights exp (f t - M) are positive reals, so their sum over
    a nonempty index set is a positive real and the quotient may be taken termwise or once. -/
theorem softmax_two_ways {ι : Type} [Fintype ι] [Nonempty ι] (f v : ι → EReal) (M : EReal)
    (hf : ∀ t, IsReal (f t)) (hv : ∀ t, IsReal (v t)) (hM : IsReal M) :
    Ideal.div (∑ t, Ideal.exp (f t - M) * v t) (∑ t, Ideal.exp (f t - M))
      = ∑ t, Ideal.div (Ideal.exp (f t - M)) (∑ t', Ideal.exp (f t' - M)) * v t := by
  have hp : ∀ t, IsPos (Ideal.exp (f t - M)) := fun t => ((hf t).sub hM).isPos_exp
  have hL : IsPos (∑ t, Ideal.exp (f t - M)) :=
    IsPos.sum _ Finset.univ_nonempty _ fun t _ => hp t
  exact (sum_div_mul_eq Finset.univ _ v _ (fun t => (hp t).isReal) hv hL).symm

/-! ## The instances -/

section Instances
variable (x : SX.Idx → EReal) (W : SW.Idx → EReal) (b : SB.Idx → EReal)
variable (hx : ∀ i, IsReal (x i)) (hW : ∀ i, IsReal (W i)) (hb : ∀ i, IsReal (b i))
include hx hW hb

/-- Every projected entry is a real: a finite sum of products of reals plus a real. -/
theorem isReal_proj (sec : Fin 3) (s : Fin 2048) (n : Fin 2) (e : Fin 1024) : IsReal (proj x W b sec s n e) := by
  unfold proj
  exact (IsReal.sum_mul _ _ _ (fun j _ => hx _) (fun j _ => hW _)).add (hb _)

/-- The two query arrangements are the same function: fact (i) at the scale 1/8. -/
theorem qFolded_eq_qScaled : qFolded x W b = qScaled x W b := by
  funext s n e
  unfold qFolded qScaled proj
  exact (affine_mul_real Finset.univ _ _ _ _ (fun j => hx _) (fun j => hW _) (hb _) isReal_scale).symm

/-- Every scaled query is a real. -/
theorem isReal_qScaled (s : Fin 2048) (n : Fin 2) (e : Fin 1024) : IsReal (qScaled x W b s n e) := by
  unfold qScaled
  exact (isReal_proj x W b hx hW hb 0 s n e).mul isReal_scale

/-- Every score is a real: a finite sum of products of reals. -/
theorem isReal_score (s : Fin 2048) (n : Fin 2) (e : Fin 1024) (t : Fin 2048) :
    IsReal (score (qScaled x W b) (proj x W b 1) s n e t) := by
  unfold score
  exact IsReal.sum_mul _ _ _ (fun d _ => isReal_qScaled x W b hx hW hb _ _ _)
    (fun d _ => isReal_proj x W b hx hW hb _ _ _ _)

end Instances

/-- A row's maximum of real scores is a real: fact (ii) over the 2048 key positions. -/
theorem isReal_rowMax (f : Fin 2048 → EReal) (hf : ∀ t, IsReal (f t)) : IsReal (rowMax f) := by
  unfold rowMax
  rw [negInf_eq]
  exact isReal_fold_max_bot _ Finset.univ_nonempty f hf

/-- One entry of the result, the two arrangements: the queries agree by (i), the maximum taken once more against
    minus infinity is the row's maximum, the sum started from the zero word is the sum, and (iii) closes. -/
theorem attnNormalisedLast_eq_first (x : SX.Idx → EReal) (W : SW.Idx → EReal) (b : SB.Idx → EReal)
    (hx : ∀ i, IsReal (x i)) (hW : ∀ i, IsReal (W i)) (hb : ∀ i, IsReal (b i))
    (s : Fin 2048) (n : Fin 2) (e : Fin 1024) :
    attnNormalisedLast x W b s n e = attnNormalisedFirst x W b s n e := by
  have hf := isReal_score x W b hx hW hb s n e
  have hv : ∀ t, IsReal (proj x W b 2 t n e) := fun t => isReal_proj x W b hx hW hb 2 t n e
  have hM := isReal_rowMax _ hf
  unfold attnNormalisedLast attnNormalisedFirst
  rw [qFolded_eq_qScaled x W b hx hW hb, negInf_eq, max_eq_right bot_le, zeroW_eq]
  simp only [zero_add]
  exact softmax_two_ways _ _ _ hf hv hM

theorem resultLast_eq_resultFirst (x : SX.Idx → EReal) (W : SW.Idx → EReal) (b : SB.Idx → EReal)
    (hx : ∀ i, IdealReal.IsReal (x i)) (hW : ∀ i, IdealReal.IsReal (W i)) (hb : ∀ i, IdealReal.IsReal (b i)) :
    resultLast x W b = resultFirst x W b := by
  funext i
  exact attnNormalisedLast_eq_first x W b hx hW hb (i 0) (i 1) (i 2)

end FusedAttention
-- ==== Proof.Finite.lean ====
import proofs.«408540_j45543833207190_3_alg».proof.Pre_finite_inputs
import proofs.«408540_j45543833207190_3_alg».proof.Proof.Spec
import proofs.«408540_j45543833207190_3_alg».proof.Proof.LibIdealReal
import Idealize.ShloMosaic.Lib.ReduceAll

/-!
  The precondition says that every element of the three argument arrays is a real number.

  It is stated as a conjunction of three words, one per array; each word is the conjunction, over every element
  a of the array, of the comparison "the absolute value of a is below plus infinity".  On the extended reals the
  absolute value of a is the greater of a and -a, which is below the top exactly when a is neither infinity.
-/

noncomputable section

namespace FusedAttention

open Idealize.ShloMosaic Idealize.ShloMosaic.ValueIdx

/-- The word of a Boolean is one exactly when the Boolean holds. -/
private theorem ofBool_eq_one {b : Bool} : BitVec.ofBool b = 1#1 ↔ b = true := by cases b <;> decide

/-- The f32 word with clear sign, exponent field all ones and zero fraction is plus infinity. -/
theorem posInf_eq_top : Ideal.ofBits .f32 0x7F800000#32 = (⊤ : EReal) := by
  simp [Ideal.ofBits, Ideal.ieee]

/-- An extended real whose absolute value compares below plus infinity is a real number. -/
theorem isReal_of_abs_lt_inf (a : EReal)
    (h : FloatOps.cmpf (F := Ideal) (φ := .f32) .olt (FloatOps.hostAbsf a) (Ideal.ofBits .f32 0x7F800000#32) = 1#1) :
    IdealReal.IsReal a := by
  change BitVec.ofBool (decide (max a (-a) < Ideal.ofBits .f32 0x7F800000#32)) = 1#1 at h
  rw [posInf_eq_top] at h
  have hlt : max a (-a) < (⊤ : EReal) := of_decide_eq_true (ofBool_eq_one.1 h)
  obtain ⟨h1, h2⟩ := max_lt_iff.1 hlt
  refine IdealReal.isReal_iff.2 ⟨fun hb => ?_, ne_of_lt h1⟩
  rw [hb, EReal.neg_bot] at h2
  exact lt_irrefl _ h2

/-- The rank-zero shape has one index. -/
instance : Subsingleton Cert.Pre_finite_inputs.S_.Idx := ⟨fun a b => funext fun d => d.elim0⟩

/-- If the conjunction, over all elements of an array, of "the absolute value is below plus infinity" is one,
    every element of the array is a real number. -/
theorem isReal_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (h : Host.reduce IntOp.andi
          (cmpf .olt (Host.absf x) (broadcastInDim s ![] hb (constant Cert.Pre_finite_inputs.S_ .f32 0x7F800000#32)))
          (constantI Cert.Pre_finite_inputs.S_ 1 1#1) hr hu ix0 = 1#1) (i : s.Idx) :
    IdealReal.IsReal (x i) :=
  isReal_of_abs_lt_inf (x i) (Host.reduce_andi_all _ _ hr hu ix0 h i)

/-- Under the precondition every element of the input, the fused weight and the bias is a real number. -/
theorem real_of_pre [Cert.Pre_finite_inputs.Facts] (x : SX.Idx → EReal) (W : SW.Idx → EReal) (b : SB.Idx → EReal)
    (h : Cert.Pre_finite_inputs.fn (F := Ideal) x W b = fun _ => 1#1) :
    (∀ i, IdealReal.IsReal (x i)) ∧ (∀ i, IdealReal.IsReal (W i)) ∧ (∀ i, IdealReal.IsReal (b i)) := by
  have h0 := congrFun h ix0
  dsimp only [Cert.Pre_finite_inputs.fn] at h0
  obtain ⟨h12, h3⟩ := IntOp.andi_eq_one.1 h0
  obtain ⟨h1, h2⟩ := IntOp.andi_eq_one.1 h12
  exact ⟨isReal_of_all x _ _ _ h1, isReal_of_all W _ _ _ h2, isReal_of_all b _ _ _ h3⟩

end FusedAttention

end
-- ==== Proof.lean ====
/-
  Multi-head self-attention over a fused query/key/value projection: the kernel against the array-library reference.

  Both programs take x : [2048, 2, 1024], a fused weight W : [1024, 3072] and a bias b : [3072], project x to queries, keys
  and values, split the 1024 embedding coordinates into 16 heads of 64, and return for every position, batch member and
  coordinate the softmax-weighted average of the values of that head.  They arrange the arithmetic differently:

  * the reference scales the projected queries by 1/8, and normalises each softmax weight by the row's sum before it meets
    its value;
  * the kernel folds the 1/8 into the query columns of W and b before the launch, works plane by plane (a batch member and
    two heads at a time: 128 lanes), keeps the plane's keys and values in scratch across the four query tiles of the plane,
    and divides the weighted sum of values by the sum of the weights once.

  On extended reals the two arrangements agree when every input is a real number: the scale moves across the projection's
  sum by distributivity, and a common positive real divisor moves across the weighted sum.  Both laws fail at the infinities,
  so the precondition (every input finite) is used.  The pieces:
    Spec        the two arrangements as functions of (x, W, b);
    Algebra     they agree on real inputs;
    Finite      the precondition makes every input a real;
    RefValue    the reference's run computes the first arrangement;
    Entry, Blocks, Pieces, Payloads, PointValue, ArrayValue
                the kernel's run computes the second: what the region finds in its arrays, what each window's block holds,
                what a point's body leaves, the carried scratch by induction over the points, the 64 output blocks tiling
                the result array, and the closing reshape.
  The idealized kernel is the kernel's own text read on extended reals (no rewrite was applied), so nothing is owed for it.
-/
import proofs.«408540_j45543833207190_3_alg».proof.Defs
import proofs.«408540_j45543833207190_3_alg».proof.Proof.Gen.Kernel
import proofs.«408540_j45543833207190_3_alg».proof.Proof.Gen.Kernel.Skeleton
import proofs.«408540_j45543833207190_3_alg».proof.Proof.Gen.Kernel.Launch
import proofs.«408540_j45543833207190_3_alg».proof.Proof.Gen.Kernel.Points
import proofs.«408540_j45543833207190_3_alg».proof.Proof.Gen.Kernel.Frame
import proofs.«408540_j45543833207190_3_alg».proof.Proof.Gen.KernelIdeal
import proofs.«408540_j45543833207190_3_alg».proof.Proof.Gen.KernelIdeal.Skeleton
import proofs.«408540_j45543833207190_3_alg».proof.Proof.Gen.KernelIdeal.Launch
import proofs.«408540_j45543833207190_3_alg».proof.Proof.Gen.KernelIdeal.Points
import proofs.«408540_j45543833207190_3_alg».proof.Proof.Gen.KernelIdeal.Frame
import proofs.«408540_j45543833207190_3_alg».proof.Proof.Gen.ReferenceIdeal
import proofs.«408540_j45543833207190_3_alg».proof.Proof.Gen.ReferenceIdeal.Run
import proofs.«408540_j45543833207190_3_alg».proof.Proof.Gen.ReferenceIdeal.Read
import proofs.«408540_j45543833207190_3_alg».proof.Proof.Gen.Pre_finite_inputs
import proofs.«408540_j45543833207190_3_alg».proof.Proof.ArrayValue
import proofs.«408540_j45543833207190_3_alg».proof.Proof.RefValue
import proofs.«408540_j45543833207190_3_alg».proof.Proof.Algebra
import proofs.«408540_j45543833207190_3_alg».proof.Proof.Finite
import Idealize.ShloMosaic.Adequacy
import Idealize.ShloMosaic.Init

noncomputable section

namespace Cert.Proof

open Idealize.ShloMosaic Idealize.SL.Sem FusedAttention

/-- The kernel as printed runs and leaves its arguments unchanged: the generated frame at the bit-level instance. -/
theorem frame_kernel : Cert.frame_Kernel := fun m ρ _ => Cert.Kernel.Gen.frame m ρ

/-- The same text read on extended reals. -/
theorem frame_kernelIdeal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the three arguments, all of them real by the precondition, the kernel's run ends at the
    second arrangement of the attention function and the reference's at the first, which agree on real inputs. -/
theorem algebraic : Cert.algebraic_KernelIdeal_ReferenceIdeal := by
  intro m ρ m' ρ' hpre hagree
  refine ⟨fun c => resultLast (argX m c) (argW m c) (argB m c), kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, (hagree c).1, (hagree c).2.1, (hagree c).2.2]
  obtain ⟨hx, hW, hb⟩ := real_of_pre (argX m c) (argW m c) (argB m c) (hpre c)
  exact (reference_value _ _ _).trans (resultLast_eq_resultFirst (argX m c) (argW m c) (argB m c) hx hW hb).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
